-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x128 : Shape := ⟨3, ![256, 1024, 128]⟩
abbrev S256x1024 : Shape := ⟨2, ![256, 1024]⟩
abbrev S256 : Shape := ⟨1, ![256]⟩
abbrev S100x1024x128 : Shape := ⟨3, ![100, 1024, 128]⟩
abbrev S_ : Shape := ⟨0, ![]⟩

class Facts : Prop where
  bcast_S_S256x1024x128 : S_.BroadcastsInDim S256x1024x128 (![] : Fin 0 → Fin S256x1024x128.rank)
  reducesTo_S256x1024x128_S_d0_1_2 : S256x1024x128.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S100x1024x128 : S_.BroadcastsInDim S100x1024x128 (![] : Fin 0 → Fin S100x1024x128.rank)
  reducesTo_S100x1024x128_S_d0_1_2 : S100x1024x128.ReducesTo [0, 1, 2] S_

variable [Facts]

def fn {F : FTy → Type} [FloatOps F] (main_arg0 : FVec F S256x1024x128 .f32) (main_arg1 : FVec F S256x1024 .f32) (main_arg2 : IVec S256 32) (main_arg3 : FVec F S100x1024x128 .f32) : IVec S_ 1 :=
  let main_v0 : FVec F S256x1024x128 .f32 := Host.absf main_arg0
  let main_cst : FVec F S_ .f32 := constant S_ .f32 0x7F800000#32
  let main_v1 : FVec F S256x1024x128 .f32 := broadcastInDim S256x1024x128 ![] bcast_S_S256x1024x128 main_cst
  let main_v2 : IVec S256x1024x128 1 := cmpf .olt main_v0 main_v1
  let main_c : IVec S_ 1 := constantI S_ 1 1#1
  let main_v3 : IVec S_ 1 := (fun x v => Host.reduce IntOp.andi x v reducesTo_S256x1024x128_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S100x1024x128 .f32 := Host.absf main_arg3
  let main_cst_2 : FVec F S_ .f32 := constant S_ .f32 0x7F800000#32
  let main_v10 : FVec F S100x1024x128 .f32 := broadcastInDim S100x1024x128 ![] bcast_S_S100x1024x128 main_cst_2
  let main_v11 : IVec S100x1024x128 1 := cmpf .olt main_v9 main_v10
  let main_c_3 : IVec S_ 1 := constantI S_ 1 1#1
  let main_v12 : IVec S_ 1 := (fun x v => Host.reduce IntOp.andi x v reducesTo_S100x1024x128_S_d0_1_2 h_S_) main_v11 main_c_3
  let main_v13 : IVec S_ 1 := andi main_v8 main_v12
  main_v13
-- ==== Kernel.lean ====
abbrev S256x1024x128 : Shape := ⟨3, ![256, 1024, 128]⟩
abbrev S256x1024 : Shape := ⟨2, ![256, 1024]⟩
abbrev S256 : Shape := ⟨1, ![256]⟩
abbrev S100x1024x128 : Shape := ⟨3, ![100, 1024, 128]⟩
abbrev S100 : Shape := ⟨1, ![100]⟩
abbrev S1x256 : Shape := ⟨2, ![1, 256]⟩
abbrev S100x1 : Shape := ⟨2, ![100, 1]⟩
abbrev S100x256 : Shape := ⟨2, ![100, 256]⟩
abbrev S1024x256 : Shape := ⟨2, ![1024, 256]⟩
abbrev S32x256 : Shape := ⟨2, ![32, 256]⟩
abbrev S256x32x128 : Shape := ⟨3, ![256, 32, 128]⟩
abbrev S100x32x128 : Shape := ⟨3, ![100, 32, 128]⟩
abbrev S256x32 : Shape := ⟨2, ![256, 32]⟩
abbrev S256x32x1 : Shape := ⟨3, ![256, 32, 1]⟩
abbrev S256x4096 : Shape := ⟨2, ![256, 4096]⟩
abbrev S100x4096 : Shape := ⟨2, ![100, 4096]⟩
abbrev S100x32 : Shape := ⟨2, ![100, 32]⟩
abbrev S100x32x1 : Shape := ⟨3, ![100, 32, 1]⟩

abbrev nBuf : Space → Nat
  | .hbm => 13
  | .vmem => 9
  | .smem => 0
  | _ => 0

abbrev bufTy : (tb : Table) → Fin (tcTables nBuf tb) → BufTy
  | .hbm, ⟨0, _⟩ => ⟨S256x1024x128, .f32⟩
  | .hbm, ⟨1, _⟩ => ⟨S256x1024, .f32⟩
  | .hbm, ⟨2, _⟩ => ⟨S256, .i32⟩
  | .hbm, ⟨3, _⟩ => ⟨S100x1024x128, .f32⟩
  | .hbm, ⟨4, _⟩ => ⟨S100, .i32⟩
  | .hbm, ⟨5, _⟩ => ⟨S1x256, .i32⟩
  | .hbm, ⟨6, _⟩ => ⟨S100x1, .i32⟩
  | .hbm, ⟨7, _⟩ => ⟨S100x256, .i32⟩
  | .hbm, ⟨8, _⟩ => ⟨S100x256, .i32⟩
  | .hbm, ⟨9, _⟩ => ⟨S100x256, .i1⟩
  | .hbm, ⟨10, _⟩ => ⟨S100x256, .f32⟩
  | .hbm, ⟨11, _⟩ => ⟨S1024x256, .f32⟩
  | .hbm, ⟨12, _⟩ => ⟨S100x1024x128, .f32⟩
  | .local _ .vmem, ⟨0, _⟩ => ⟨S100x256, .f32⟩
  | .local _ .vmem, ⟨1, _⟩ => ⟨S32x256, .f32⟩
  | .local _ .vmem, ⟨2, _⟩ => ⟨S32x256, .f32⟩
  | .local _ .vmem, ⟨3, _⟩ => ⟨S256x32x128, .f32⟩
  | .local _ .vmem, ⟨4, _⟩ => ⟨S256x32x128, .f32⟩
  | .local _ .vmem, ⟨5, _⟩ => ⟨S100x32x128, .f32⟩
  | .local _ .vmem, ⟨6, _⟩ => ⟨S100x32x128, .f32⟩
  | .local _ .vmem, ⟨7, _⟩ => ⟨S100x32x128, .f32⟩
  | .local _ .vmem, ⟨8, _⟩ => ⟨S100x32x128, .f32⟩
  | _, _ => ⟨S256x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S100x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S100x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S256_S1x256_1 : S256.BroadcastsInDim S1x256 (![1] : Fin 1 → Fin S1x256.rank)
  bcast_S100_S100x1_0 : S100.BroadcastsInDim S100x1 (![0] : Fin 1 → Fin S100x1.rank)
  bcast_S1x256_S100x256_0_1 : S1x256.BroadcastsInDim S100x256 (![0, 1] : Fin 2 → Fin S100x256.rank)
  bcast_S100x1_S100x256_0_1 : S100x1.BroadcastsInDim S100x256 (![0, 1] : Fin 2 → Fin S100x256.rank)
  transposes_S256x1024_S1024x256_1_0 : S256x1024.Transposes [1, 0] S1024x256
  inb_S100x256_S100x256_0_0 : ∀ a, (![0, 0] : Fin 2 → Nat) a + S100x256.size a ≤ S100x256.size a
  h_S100x256 : 0 < S100x256.numel
  shapeCasts_S100x256_S100x256 : S100x256.ShapeCasts S100x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  transposes_S32x256_p1_0_S256x32 : S32x256.Transposes [1, 0] S256x32
  inb_S256x32x128_S256x32x128_0_0_0 : ∀ a, (![0, 0, 0] : Fin 3 → Nat) a + S256x32x128.size a ≤ S256x32x128.size a
  h_S256x32x128 : 0 < S256x32x128.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  shapeCasts_S100x4096_S100x32x128 : S100x4096.ShapeCasts S100x32x128
  shapeCasts_S100x32_S100x32x1 : S100x32.ShapeCasts S100x32x1
  broadcasts_S100x32x1_S100x32x128 : S100x32x1.Broadcasts S100x32x128
  reduces_S100x32x128_S100x32 : S100x32x128.Reduces [2] S100x32
  inb_S100x32x128_S100x32x128_0_0_0 : ∀ a, (![0, 0, 0] : Fin 3 → Nat) a + S100x32x128.size a ≤ S100x32x128.size a
  h_S100x32x128 : 0 < S100x32x128.numel
  dot_S100x256_S256x4096_S100x4096_1_0_0_1_n_n_wf : DotDims.WF S100x256 S256x4096 S100x4096 [1] [0] [0] [1] [] []
  dot_S100x256_S256x32_S100x32_1_0_0_1_n_n_wf : DotDims.WF S100x256 S256x32 S100x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x256.size a ≤ S100x256.size a
  hwx0_0 : ∀ i : grid0.Coords, EltTy.bits .f32 = 32 ∨ (Rect.block (s := S100x256) S100x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S1024x256.size a
  hwx0_1 : ∀ i : grid0.Coords, EltTy.bits .f32 = 32 ∨ (Rect.block (s := S1024x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x128.size a ≤ S256x1024x128.size a
  hwx0_2 : ∀ i : grid0.Coords, EltTy.bits .f32 = 32 ∨ (Rect.block (s := S256x1024x128) S256x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S100x32x128.size a ≤ S100x1024x128.size a
  hwx0_3 : ∀ i : grid0.Coords, EltTy.bits .f32 = 32 ∨ (Rect.block (s := S100x1024x128) S100x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S100x32x128.size a ≤ S100x1024x128.size a
  hwx0_4 : ∀ i : grid0.Coords, EltTy.bits .f32 = 32 ∨ (Rect.block (s := S100x1024x128) S100x32x128.size (cc0_transform_4 i) (hinb0_4 i)).WholeWords (EltTy.packing .f32)

variable [Facts₀]

def dot_S100x256_S256x4096_S100x4096_1_0_0_1_n_n : DotDims S100x256 S256x4096 S100x4096 where
  lhsContracting := [1]
  rhsContracting := [0]
  lhsNonContracting := [0]
  rhsNonContracting := [1]
  lhsBatch := []
  rhsBatch := []
  wf := dot_S100x256_S256x4096_S100x4096_1_0_0_1_n_n_wf
def dot_S100x256_S256x32_S100x32_1_0_0_1_n_n : DotDims S100x256 S256x32 S100x32 where
  lhsContracting := [1]
  rhsContracting := [0]
  lhsNonContracting := [0]
  rhsNonContracting := [1]
  lhsBatch := []
  rhsBatch := []
  wf := dot_S100x256_S256x32_S100x32_1_0_0_1_n_n_wf

abbrev win0_0 : Pipeline.Window sig grid0 :=
  Pipeline.Window.ofSpec (Memref.whole main_v6) S100x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S100x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x1024x128 : Shape := ⟨3, ![256, 1024, 128]⟩
abbrev S256x1024 : Shape := ⟨2, ![256, 1024]⟩
abbrev S256 : Shape := ⟨1, ![256]⟩
abbrev S100x1024x128 : Shape := ⟨3, ![100, 1024, 128]⟩
abbrev S256x1024x1 : Shape := ⟨3, ![256, 1024, 1]⟩
abbrev S_ : Shape := ⟨0, ![]⟩
abbrev S256x1 : Shape := ⟨2, ![256, 1]⟩
abbrev S100x1024 : Shape := ⟨2, ![100, 1024]⟩
abbrev S100x1024x1 : Shape := ⟨3, ![100, 1024, 1]⟩

abbrev nBuf : Space → Nat
  | .hbm => 48
  | .vmem => 0
  | .smem => 0
  | _ => 0

abbrev bufTy : (tb : Table) → Fin (tcTables nBuf tb) → BufTy
  | .hbm, ⟨0, _⟩ => ⟨S256x1024x128, .f32⟩
  | .hbm, ⟨1, _⟩ => ⟨S256x1024, .f32⟩
  | .hbm, ⟨2, _⟩ => ⟨S256, .i32⟩
  | .hbm, ⟨3, _⟩ => ⟨S100x1024x128, .f32⟩
  | .hbm, ⟨4, _⟩ => ⟨S256x1024x1, .f32⟩
  | .hbm, ⟨5, _⟩ => ⟨S256x1024x128, .f32⟩
  | .hbm, ⟨6, _⟩ => ⟨S256x1024x128, .f32⟩
  | .hbm, ⟨7, _⟩ => ⟨S_, .f32⟩
  | .hbm, ⟨8, _⟩ => ⟨S100x1024x128, .f32⟩
  | .hbm, ⟨9, _⟩ => ⟨S256x1, .i32⟩
  | .hbm, ⟨10, _⟩ => ⟨S100x1024x128, .f32⟩
  | .hbm, ⟨11, _⟩ => ⟨S_, .f32⟩
  | .hbm, ⟨12, _⟩ => ⟨S100x1024, .f32⟩
  | .hbm, ⟨13, _⟩ => ⟨S256x1, .i32⟩
  | .hbm, ⟨14, _⟩ => ⟨S100x1024, .f32⟩
  | .hbm, ⟨15, _⟩ => ⟨S_, .f32⟩
  | .hbm, ⟨16, _⟩ => ⟨S100x1024, .f32⟩
  | .hbm, ⟨17, _⟩ => ⟨S100x1024, .f32⟩
  | .hbm, ⟨18, _⟩ => ⟨S100x1024x1, .f32⟩
  | .hbm, ⟨19, _⟩ => ⟨S100x1024x128, .f32⟩
  | .hbm, ⟨20, _⟩ => ⟨S100x1024x128, .f32⟩
  | .hbm, ⟨21, _⟩ => ⟨S100x1024x128, .f32⟩
  | .hbm, ⟨22, _⟩ => ⟨S_, .f32⟩
  | .hbm, ⟨23, _⟩ => ⟨S100x1024, .f32⟩
  | .hbm, ⟨24, _⟩ => ⟨S100x1024x1, .f32⟩
  | .hbm, ⟨25, _⟩ => ⟨S100x1024x1, .f32⟩
  | .hbm, ⟨26, _⟩ => ⟨S_, .f32⟩
  | .hbm, ⟨27, _⟩ => ⟨S100x1024x1, .f32⟩
  | .hbm, ⟨28, _⟩ => ⟨S100x1024x1, .f32⟩
  | .hbm, ⟨29, _⟩ => ⟨S100x1024x128, .f32⟩
  | .hbm, ⟨30, _⟩ => ⟨S100x1024x128, .f32⟩
  | .hbm, ⟨31, _⟩ => ⟨S_, .f32⟩
  | .hbm, ⟨32, _⟩ => ⟨S100x1024x128, .f32⟩
  | .hbm, ⟨33, _⟩ => ⟨S100x1024x128, .f32⟩
  | .hbm, ⟨34, _⟩ => ⟨S_, .f32⟩
  | .hbm, ⟨35, _⟩ => ⟨S100x1024x128, .f32⟩
  | .hbm, ⟨36, _⟩ => ⟨S100x1024x128, .f32⟩
  | .hbm, ⟨37, _⟩ => ⟨S100x1024x128, .f32⟩
  | .hbm, ⟨38, _⟩ => ⟨S100x1024x128, .f32⟩
  | .hbm, ⟨39, _⟩ => ⟨S_, .f32⟩
  | .hbm, ⟨40, _⟩ => ⟨S100x1024, .f32⟩
  | .hbm, ⟨41, _⟩ => ⟨S100x1024x1, .f32⟩
  | .hbm, ⟨42, _⟩ => ⟨S100x1024x1, .f32⟩
  | .hbm, ⟨43, _⟩ => ⟨S_, .f32⟩
  | .hbm, ⟨44, _⟩ => ⟨S100x1024x1, .f32⟩
  | .hbm, ⟨45, _⟩ => ⟨S100x1024x1, .f32⟩
  | .hbm, ⟨46, _⟩ => ⟨S100x1024x128, .f32⟩
  | .hbm, ⟨47, _⟩ => ⟨S100x1024x128, .f32⟩
  | _, _ => ⟨S256x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S256x1024_S256x1024x1_0_1 : S256x1024.BroadcastsInDim S256x1024x1 (![0, 1] : Fin 2 → Fin S256x1024x1.rank)
  bcast_S256x1024x1_S256x1024x128_0_1_2 : S256x1024x1.BroadcastsInDim S256x1024x128 (![0, 1, 2] : Fin 3 → Fin S256x1024x128.rank)
  bcast_S_S100x1024x128 : S_.BroadcastsInDim S100x1024x128 (![] : Fin 0 → Fin S100x1024x128.rank)
  bcast_S256_S256x1_0 : S256.BroadcastsInDim S256x1 (![0] : Fin 1 → Fin S256x1.rank)
  bcast_S_S100x1024 : S_.BroadcastsInDim S100x1024 (![] : Fin 0 → Fin S100x1024.rank)
  bcast_S100x1024_S100x1024x1_0_1 : S100x1024.BroadcastsInDim S100x1024x1 (![0, 1] : Fin 2 → Fin S100x1024x1.rank)
  bcast_S100x1024x1_S100x1024x128_0_1_2 : S100x1024x1.BroadcastsInDim S100x1024x128 (![0, 1, 2] : Fin 3 → Fin S100x1024x128.rank)
  reducesTo_S100x1024x128_S100x1024_d2 : S100x1024x128.ReducesTo [2] S100x1024
  h_S_ : 0 < S_.numel
  bcast_S_S100x1024x1 : S_.BroadcastsInDim S100x1024x1 (![] : Fin 0 → Fin S100x1024x1.rank)
  scatter_S100x1024x128_S256x1_S256x1024x128_12_0_0_1_wf : ScatterDims.WF S100x1024x128 S256x1 S256x1024x128 [1, 2] [0] [0] 1
  scatter_S100x1024_S256x1_S256x1024_1_0_0_1_wf : ScatterDims.WF S100x1024 S256x1 S256x1024 [1] [0] [0] 1

variable [Facts₀]

def scatter_S100x1024x128_S256x1_S256x1024x128_12_0_0_1 : ScatterDims S100x1024x128 S256x1 S256x1024x128 where
  updateWindowDims := [1, 2]
  insertedWindowDims := [0]
  scatterDimsToOperandDims := [0]
  indexVectorDim := 1
  wf := scatter_S100x1024x128_S256x1_S256x1024x128_12_0_0_1_wf
def scatter_S100x1024_S256x1_S256x1024_1_0_0_1 : ScatterDims S100x1024 S256x1 S256x1024 where
  updateWindowDims := [1]
  insertedWindowDims := [0]
  scatterDimsToOperandDims := [0]
  indexVectorDim := 1
  wf := scatter_S100x1024_S256x1_S256x1024_1_0_0_1_wf

class Facts : Prop extends Facts₀ where

variable [Facts]
-- ==== Proof.Spec.lean ====
/-
  The vertex-memory update, as one function of the four arguments.

  For a class `k`, a vertex `v` and a channel `c`:
    * `upd k v c`  = the sum of `vertices b v c * visible b v` over the batch entries `b` whose label is `k`,
    * `den k v`    = `max (the sum of visible b v over those b) 1`,
    * `u k v c`    = `upd k v c / den k v`, normalised along `c` to Euclidean length one (a row whose length is
                     under `ε` is divided by `ε` instead),
    * the result   = `0.9 * weight k v c + 0.1 * (that normalised row)`, normalised along `c` again.
  A label outside `[0, 100)` belongs to no class and contributes nowhere.

  Also here: a one-hot row times a vector is the sum over the entries of that class (`onehot_sum`).
-/
import Idealize.ShloMosaic.PureOps.Ideal
import Idealize.ShloMosaic.PureOps.Ideal.Laws
import Idealize.ShloMosaic.Lib.ValueIdx

noncomputable section

namespace Mesh

open Idealize.ShloMosaic Idealize.ShloMosaic.ValueIdx Finset

/-- The four float literals of both programs, as the extended reals their words denote. -/
abbrev eps : EReal := Ideal.ofBits .f32 0x2B8CBCCC#32
abbrev one : EReal := Ideal.ofBits .f32 0x3F800000#32
abbrev keep : EReal := Ideal.ofBits .f32 0x3F666666#32
abbrev gain : EReal := Ideal.ofBits .f32 0x3DCCCCCD#32

/-- A row of 128 channels divided by `max (its Euclidean length) ε`. -/
def normalize (u : Fin 128 → EReal) (c : Fin 128) : EReal :=
  Ideal.div (u c) (max (Ideal.sqrt (∑ c', u c' * u c')) eps)

/-- From the raw segment sum `u` of one (class, vertex) row, its clamped denominator `d` and the stored weight row
    `w`: the new weight row. -/
def rowOut (u : Fin 128 → EReal) (d : EReal) (w : Fin 128 → EReal) : Fin 128 → EReal :=
  normalize (fun c => keep * w c + gain * normalize (fun c' => Ideal.div (u c') d) c)

/-- The sum of `f` over the batch entries whose label, read signed, is the class `k`. -/
def segSum (label : Fin 256 → BitVec 32) (k : Fin 100) (f : Fin 256 → EReal) : EReal :=
  ∑ b ∈ univ.filter (fun b : Fin 256 => (label b).toInt = (k.val : ℤ)), f b

/-- THE RESULT, index by index. -/
def G (vert : (⟨3, ![256, 1024, 128]⟩ : Shape).Idx → EReal) (vis : (⟨2, ![256, 1024]⟩ : Shape).Idx → EReal)
    (label : (⟨1, ![256]⟩ : Shape).Idx → BitVec 32) (w : (⟨3, ![100, 1024, 128]⟩ : Shape).Idx → EReal) :
    (⟨3, ![100, 1024, 128]⟩ : Shape).Idx → EReal := fun i =>
  rowOut (fun c' => segSum (fun b => label (ix1 b)) (i 0) (fun b => vert (ix3 b (i 1) c') * vis (ix2 b (i 1))))
    (max (segSum (fun b => label (ix1 b)) (i 0) (fun b => vis (ix2 b (i 1)))) one)
    (fun c' => w (ix3 (i 0) (i 1) c')) (i 2)

/-- A 32-bit word is the word of a small natural exactly when it reads, signed, as that natural. -/
theorem eq_ofNat_iff_toInt (x : BitVec 32) (k : Fin 100) : x = BitVec.ofNat 32 k.val ↔ x.toInt = (k.val : ℤ) := by
  have hk := k.isLt
  have e : (BitVec.ofNat 32 k.val).toInt = (k.val : ℤ) := by
    rw [BitVec.toInt_eq_toNat_cond, BitVec.toNat_ofNat]
    have hm : k.val % 2 ^ 32 = k.val := Nat.mod_eq_of_lt (by omega)
    rw [hm]
    simp only [Nat.reducePow]
    split <;> omega
  constructor
  · rintro rfl; exact e
  · intro h; exact BitVec.eq_of_toInt_eq (h.trans e.symm)

/-- The one-hot entry of class `k` at a label: 1 when the label is `k`, else 0. -/
theorem onehot_entry (x : BitVec 32) (k : Fin 100) :
    (((IntOp.cmpi .eq x (BitVec.ofNat 32 k.val)).toNat : ℝ) : EReal) = if x.toInt = (k.val : ℤ) then 1 else 0 := by
  by_cases h : x.toInt = (k.val : ℤ)
  · rw [if_pos h, (eq_ofNat_iff_toInt x k).mpr h]
    simp [IntOp.cmpi]
  · rw [if_neg h]
    have hne : ¬ x = BitVec.ofNat 32 k.val := fun e => h ((eq_ofNat_iff_toInt x k).mp e)
    simp [IntOp.cmpi, hne]

/-- A ONE-HOT ROW TIMES A VECTOR is the sum over the entries of that class: the factor 1 keeps a term, the factor 0
    drops it (on the extended reals `0 * x = 0` for every `x`). -/
theorem onehot_sum (label : Fin 256 → BitVec 32) (k : Fin 100) (f : Fin 256 → EReal) :
    ∑ b : Fin 256, (((IntOp.cmpi .eq (label b) (BitVec.ofNat 32 k.val)).toNat : ℝ) : EReal) * f b = segSum label k f := by
  unfold segSum
  rw [Finset.sum_filter]
  refine Finset.sum_congr rfl fun b _ => ?_
  rw [onehot_entry]
  by_cases h : (label b).toInt = (k.val : ℤ)
  · rw [if_pos h, if_pos h, one_mul]
  · rw [if_neg h, if_neg h, zero_mul]

end Mesh

end
-- ==== Proof.Payload.lean ====
/-
  The kernel body's arithmetic on one block, read at an index.

  A grid point holds the one-hot matrix `H` [100, 256] (class × batch), a block `Vt` [32, 256] of the transposed
  visibilities (vertex × batch), a block `X` [256, 32, 128] of the vertices (batch × vertex × channel) and a block `W`
  [100, 32, 128] of the weights. The body forms, for class `k`, vertex `q` and channel `c`,
    `upd k q c = ∑ b, H k b * (X b q c * Vt q b)`   (a [100, 256] × [256, 4096] product, the vertex and channel axes merged),
    `den k q   = max (∑ b, H k b * Vt q b) 1`       (a [100, 256] × [256, 32] product),
  and from these the new weight row `Mesh.rowOut (upd k q ·) (den k q) (W k q ·)`.
  The layout operations around the two products — a transpose, the column forms of a reshape and a broadcast, the
  merging and splitting reshapes — are read at an index first, one lemma each.
-/
import proofs.«419029_j28003186770312_1_alg».proof.Proof.Gen.KernelIdeal.Value
import proofs.«419029_j28003186770312_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Finset

/-! ## Layout operations at an index -/

/-- The transposed visibilities: entry (b, q) of the transpose is entry (q, b). -/
theorem transpose_vis {α : Type} (x : S32x256.Idx → α) (b : Fin 256) (q : Fin 32) :
    transpose S256x32 [1, 0] x transposes_S32x256_p1_0_S256x32 (ix2 b q) = x (ix2 q b) :=
  transpose_apply _ x _ (ix2 b q) (ix2 q b) (fun a => match a with | ⟨0, _⟩ => rfl | ⟨1, _⟩ => rfl)

/-- A [256, 32] matrix as a column of rows, spread over 128 channels: entry (b, q, c) is entry (b, q). -/
theorem spread_vis {α : Type} (y : S256x32.Idx → α) (b : Fin 256) (q : Fin 32) (c : Fin 128) :
    broadcastTo S256x32x128 (shapeCast S256x32x1 y shapeCasts_S256x32_S256x32x1) broadcasts_S256x32x1_S256x32x128 (ix3 b q c)
      = y (ix2 b q) := by
  refine (broadcastTo_apply _ _ (ix3 b q c) (ix3 b q (0 : Fin 1)) (fun a => match a with
    | ⟨0, _⟩ => by show b.val = (if (256 : Nat) = 1 then 0 else b.val); rw [if_neg (by decide)]
    | ⟨1, _⟩ => by show q.val = (if (32 : Nat) = 1 then 0 else q.val); rw [if_neg (by decide)]
    | ⟨2, _⟩ => by show 0 = (if (1 : Nat) = 1 then 0 else c.val); rw [if_pos rfl])).trans ?_
  exact shapeCast_apply _ _ (ix3 b q (0 : Fin 1)) (ix2 b q) (by
    rw [Shape.rowMajor_val_two, Shape.rowMajor_val_three]
    show b.val * 32 + q.val = (b.val * 32 + q.val) * 1 + 0; omega)

/-- The same for a [100, 32] matrix. -/
theorem spread_den {α : Type} (y : S100x32.Idx → α) (k : Fin 100) (q : Fin 32) (c : Fin 128) :
    broadcastTo S100x32x128 (shapeCast S100x32x1 y shapeCasts_S100x32_S100x32x1) broadcasts_S100x32x1_S100x32x128 (ix3 k q c)
      = y (ix2 k q) := by
  refine (broadcastTo_apply _ _ (ix3 k q c) (ix3 k q (0 : Fin 1)) (fun a => match a with
    | ⟨0, _⟩ => by show k.val = (if (100 : Nat) = 1 then 0 else k.val); rw [if_neg (by decide)]
    | ⟨1, _⟩ => by show q.val = (if (32 : Nat) = 1 then 0 else q.val); rw [if_neg (by decide)]
    | ⟨2, _⟩ => by show 0 = (if (1 : Nat) = 1 then 0 else c.val); rw [if_pos rfl])).trans ?_
  exact shapeCast_apply _ _ (ix3 k q (0 : Fin 1)) (ix2 k q) (by
    rw [Shape.rowMajor_val_two, Shape.rowMajor_val_three]
    show k.val * 32 + q.val = (k.val * 32 + q.val) * 1 + 0; omega)

/-- A [100, 32, 1] column spread over 128 channels: entry (k, q, c) is entry (k, q, 0). -/
theorem spread_col {α : Type} (y : S100x32x1.Idx → α) (k : Fin 100) (q : Fin 32) (c : Fin 128) :
    broadcastTo S100x32x128 y broadcasts_S100x32x1_S100x32x128 (ix3 k q c) = y (ix3 k q (0 : Fin 1)) :=
  broadcastTo_apply _ _ (ix3 k q c) (ix3 k q (0 : Fin 1)) (fun a => match a with
    | ⟨0, _⟩ => by show k.val = (if (100 : Nat) = 1 then 0 else k.val); rw [if_neg (by decide)]
    | ⟨1, _⟩ => by show q.val = (if (32 : Nat) = 1 then 0 else q.val); rw [if_neg (by decide)]
    | ⟨2, _⟩ => by show 0 = (if (1 : Nat) = 1 then 0 else c.val); rw [if_pos rfl])

/-- A [100, 32] matrix as a column: entry (k, q, 0) is entry (k, q). -/
theorem col_of {α : Type} (y : S100x32.Idx → α) (k : Fin 100) (q : Fin 32) :
    shapeCast S100x32x1 y shapeCasts_S100x32_S100x32x1 (ix3 k q (0 : Fin 1)) = y (ix2 k q) :=
  shapeCast_apply _ _ (ix3 k q (0 : Fin 1)) (ix2 k q) (by
    rw [Shape.rowMajor_val_two, Shape.rowMajor_val_three]
    show k.val * 32 + q.val = (k.val * 32 + q.val) * 1 + 0; omega)

/-- The merged position of vertex `q` and channel `c` on the 4096-long axis. -/
abbrev merged (q : Fin 32) (c : Fin 128) : Fin 4096 := ⟨q.val * 128 + c.val, by have := q.isLt; have := c.isLt; omega⟩

/-- Merging the vertex and channel axes: entry (b, q·128 + c) of the [256, 4096] form is entry (b, q, c). -/
theorem merge_apply {α : Type} (x : S256x32x128.Idx → α) (b : Fin 256) (q : Fin 32) (c : Fin 128) :
    shapeCast S256x4096 x shapeCasts_S256x32x128_S256x4096 (ix2 b (merged q c)) = x (ix3 b q c) :=
  shapeCast_apply _ _ (ix2 b (merged q c)) (ix3 b q c) (by
    rw [Shape.rowMajor_val_two, Shape.rowMajor_val_three]
    show (b.val * 32 + q.val) * 128 + c.val = b.val * 4096 + (q.val * 128 + c.val); omega)

/-- Splitting them again: entry (k, q, c) of the [100, 32, 128] form is entry (k, q·128 + c). -/
theorem split_apply {α : Type} (x : S100x4096.Idx → α) (k : Fin 100) (q : Fin 32) (c : Fin 128) :
    shapeCast S100x32x128 x shapeCasts_S100x4096_S100x32x128 (ix3 k q c) = x (ix2 k (merged q c)) :=
  shapeCast_apply _ _ (ix3 k q c) (ix2 k (merged q c)) (by
    rw [Shape.rowMajor_val_two, Shape.rowMajor_val_three]
    show k.val * 4096 + (q.val * 128 + c.val) = (k.val * 32 + q.val) * 128 + c.val; omega)

/-! ## The two products at an index

Each contracts the batch axis: entry (k, j) of the product into a zero accumulator is `∑ b, lhs k b * rhs b j`. -/

theorem lhs_upd_0 (i : S100x4096.Idx) (q : dot_S100x256_S256x4096_S100x4096_1_0_0_1_n_n.contr.Idx) :
    (dot_S100x256_S256x4096_S100x4096_1_0_0_1_n_n.lhsIdx i q 0).val = (i 0).val := by
  unfold DotDims.lhsIdx
  rw [dif_neg (show ¬(0 : Fin S100x256.rank) ∈ dot_S100x256_S256x4096_S100x4096_1_0_0_1_n_n.lhsBatch by decide), dif_pos (show (0 : Fin S100x256.rank) ∈ dot_S100x256_S256x4096_S100x4096_1_0_0_1_n_n.lhsNonContracting by decide)]
  rfl
theorem lhs_upd_1 (i : S100x4096.Idx) (q : dot_S100x256_S256x4096_S100x4096_1_0_0_1_n_n.contr.Idx) :
    (dot_S100x256_S256x4096_S100x4096_1_0_0_1_n_n.lhsIdx i q 1).val = (q ⟨0, by decide⟩).val :=
  dot_S100x256_S256x4096_S100x4096_1_0_0_1_n_n.lhsIdx_val_of_single rfl i q
theorem rhs_upd_0 (i : S100x4096.Idx) (q : dot_S100x256_S256x4096_S100x4096_1_0_0_1_n_n.contr.Idx) :
    (dot_S100x256_S256x4096_S100x4096_1_0_0_1_n_n.rhsIdx i q 0).val = (q ⟨0, by decide⟩).val :=
  dot_S100x256_S256x4096_S100x4096_1_0_0_1_n_n.rhsIdx_val_of_single rfl i q
theorem rhs_upd_1 (i : S100x4096.Idx) (q : dot_S100x256_S256x4096_S100x4096_1_0_0_1_n_n.contr.Idx) :
    (dot_S100x256_S256x4096_S100x4096_1_0_0_1_n_n.rhsIdx i q 1).val = (i 1).val := by
  unfold DotDims.rhsIdx
  rw [dif_neg (show ¬(1 : Fin S256x4096.rank) ∈ dot_S100x256_S256x4096_S100x4096_1_0_0_1_n_n.rhsBatch by decide), dif_pos (show (1 : Fin S256x4096.rank) ∈ dot_S100x256_S256x4096_S100x4096_1_0_0_1_n_n.rhsNonContracting by decide)]
  rfl

/-- The [100, 256] × [256, 4096] product into zeros, at (k, j). -/
theorem upd_matmul {φ₁ φ₂ : FTy} (lhs : FVec Ideal S100x256 φ₁) (rhs : FVec Ideal S256x4096 φ₂) (k : Fin 100) (j : Fin 4096) :
    matmul dot_S100x256_S256x4096_S100x4096_1_0_0_1_n_n none lhs rhs (constant S100x4096 .f32 0x00000000#32) (ix2 k j)
      = ∑ b : Fin 256, lhs (ix2 k b) * rhs (ix2 b j) := by
  simp only [matmul]
  rw [Ideal.matmul_constant_zero_apply, ← Equiv.sum_comp (contrEquiv1 dot_S100x256_S256x4096_S100x4096_1_0_0_1_n_n 256 rfl rfl).symm]
  refine Finset.sum_congr rfl fun b _ => ?_
  have hk := contrEquiv1_symm_val dot_S100x256_S256x4096_S100x4096_1_0_0_1_n_n 256 rfl rfl b
  have el : dot_S100x256_S256x4096_S100x4096_1_0_0_1_n_n.lhsIdx (ix2 k j) ((contrEquiv1 dot_S100x256_S256x4096_S100x4096_1_0_0_1_n_n 256 rfl rfl).symm b) = ix2 k b := funext fun a => Fin.ext (by
    match a with
    | ⟨0, _⟩ => exact lhs_upd_0 _ _
    | ⟨1, _⟩ => exact (lhs_upd_1 _ _).trans hk)
  have er : dot_S100x256_S256x4096_S100x4096_1_0_0_1_n_n.rhsIdx (ix2 k j) ((contrEquiv1 dot_S100x256_S256x4096_S100x4096_1_0_0_1_n_n 256 rfl rfl).symm b) = ix2 b j := funext fun a => Fin.ext (by
    match a with
    | ⟨0, _⟩ => exact (rhs_upd_0 _ _).trans hk
    | ⟨1, _⟩ => exact rhs_upd_1 _ _)
  rw [el, er]

theorem lhs_den_0 (i : S100x32.Idx) (q : dot_S100x256_S256x32_S100x32_1_0_0_1_n_n.contr.Idx) :
    (dot_S100x256_S256x32_S100x32_1_0_0_1_n_n.lhsIdx i q 0).val = (i 0).val := by
  unfold DotDims.lhsIdx
  rw [dif_neg (show ¬(0 : Fin S100x256.rank) ∈ dot_S100x256_S256x32_S100x32_1_0_0_1_n_n.lhsBatch by decide), dif_pos (show (0 : Fin S100x256.rank) ∈ dot_S100x256_S256x32_S100x32_1_0_0_1_n_n.lhsNonContracting by decide)]
  rfl
theorem lhs_den_1 (i : S100x32.Idx) (q : dot_S100x256_S256x32_S100x32_1_0_0_1_n_n.contr.Idx) :
    (dot_S100x256_S256x32_S100x32_1_0_0_1_n_n.lhsIdx i q 1).val = (q ⟨0, by decide⟩).val :=
  dot_S100x256_S256x32_S100x32_1_0_0_1_n_n.lhsIdx_val_of_single rfl i q
theorem rhs_den_0 (i : S100x32.Idx) (q : dot_S100x256_S256x32_S100x32_1_0_0_1_n_n.contr.Idx) :
    (dot_S100x256_S256x32_S100x32_1_0_0_1_n_n.rhsIdx i q 0).val = (q ⟨0, by decide⟩).val :=
  dot_S100x256_S256x32_S100x32_1_0_0_1_n_n.rhsIdx_val_of_single rfl i q
theorem rhs_den_1 (i : S100x32.Idx) (q : dot_S100x256_S256x32_S100x32_1_0_0_1_n_n.contr.Idx) :
    (dot_S100x256_S256x32_S100x32_1_0_0_1_n_n.rhsIdx i q 1).val = (i 1).val := by
  unfold DotDims.rhsIdx
  rw [dif_neg (show ¬(1 : Fin S256x32.rank) ∈ dot_S100x256_S256x32_S100x32_1_0_0_1_n_n.rhsBatch by decide), dif_pos (show (1 : Fin S256x32.rank) ∈ dot_S100x256_S256x32_S100x32_1_0_0_1_n_n.rhsNonContracting by decide)]
  rfl

/-- The [100, 256] × [256, 32] product into zeros, at (k, q). -/
theorem den_matmul {φ₁ φ₂ : FTy} (lhs : FVec Ideal S100x256 φ₁) (rhs : FVec Ideal S256x32 φ₂) (k : Fin 100) (q : Fin 32) :
    matmul dot_S100x256_S256x32_S100x32_1_0_0_1_n_n none lhs rhs (constant S100x32 .f32 0x00000000#32) (ix2 k q)
      = ∑ b : Fin 256, lhs (ix2 k b) * rhs (ix2 b q) := by
  simp only [matmul]
  rw [Ideal.matmul_constant_zero_apply, ← Equiv.sum_comp (contrEquiv1 dot_S100x256_S256x32_S100x32_1_0_0_1_n_n 256 rfl rfl).symm]
  refine Finset.sum_congr rfl fun b _ => ?_
  have hk := contrEquiv1_symm_val dot_S100x256_S256x32_S100x32_1_0_0_1_n_n 256 rfl rfl b
  have el : dot_S100x256_S256x32_S100x32_1_0_0_1_n_n.lhsIdx (ix2 k q) ((contrEquiv1 dot_S100x256_S256x32_S100x32_1_0_0_1_n_n 256 rfl rfl).symm b) = ix2 k b := funext fun a => Fin.ext (by
    match a with
    | ⟨0, _⟩ => exact lhs_den_0 _ _
    | ⟨1, _⟩ => exact (lhs_den_1 _ _).trans hk)
  have er : dot_S100x256_S256x32_S100x32_1_0_0_1_n_n.rhsIdx (ix2 k q) ((contrEquiv1 dot_S100x256_S256x32_S100x32_1_0_0_1_n_n 256 rfl rfl).symm b) = ix2 b q := funext fun a => Fin.ext (by
    match a with
    | ⟨0, _⟩ => exact (rhs_den_0 _ _).trans hk
    | ⟨1, _⟩ => exact rhs_den_1 _ _)
  rw [el, er]

/-- The sum of a [100, 32, 128] block along its channels, at (k, q). -/
theorem chan_sum (x : FVec Ideal S100x32x128 .f32) (hφ : FKind.Formats .f32)
    (hacc : (0x00000000#32 : BitVec 32) = 0x00000000#32) (k : Fin 100) (q : Fin 32) :
    multiReduction .add [2] S100x32 x 0x00000000#32 reduces_S100x32x128_S100x32 hφ hacc (ix2 k q)
      = ∑ c : Fin 128, x (ix3 k q c) := by
  refine (Ideal.multiReduction_add_single x 0x00000000#32 reduces_S100x32x128_S100x32 hφ hacc (ix2 k q)).trans ?_
  refine Finset.sum_congr rfl fun c _ => ?_
  exact congrArg x (funext fun a => Fin.ext (by match a with | ⟨0, _⟩ => rfl | ⟨1, _⟩ => rfl | ⟨2, _⟩ => rfl))

/-! ## The body's values at an index -/

/-- The quotient `upd / den` of the body, as its tree of vector operations over the loaded blocks. -/
def quot (P0 : Vec Ideal S100x256 .f32) (P1 : Vec Ideal S32x256 .f32) (P2 : Vec Ideal S256x32x128 .f32) :
    FVec Ideal S100x32x128 .f32 :=
  divf
    (shapeCast S100x32x128
      (matmul dot_S100x256_S256x4096_S100x4096_1_0_0_1_n_n none
        (truncf .bf16 (shapeCast S100x256 P0 shapeCasts_S100x256_S100x256) bitsLt_bf16_f32)
        (truncf .bf16 (shapeCast S256x4096 (mulf P2 (broadcastTo S256x32x128 (shapeCast S256x32x1
          (transpose S256x32 [1, 0] (shapeCast S32x256 P1 shapeCasts_S32x256_S32x256) transposes_S32x256_p1_0_S256x32)
          shapeCasts_S256x32_S256x32x1) broadcasts_S256x32x1_S256x32x128)) shapeCasts_S256x32x128_S256x4096) bitsLt_bf16_f32)
        (constant S100x4096 .f32 0x00000000#32))
      shapeCasts_S100x4096_S100x32x128)
    (broadcastTo S100x32x128 (shapeCast S100x32x1
      (maximumf
        (matmul dot_S100x256_S256x32_S100x32_1_0_0_1_n_n none
          (truncf .bf16 (shapeCast S100x256 P0 shapeCasts_S100x256_S100x256) bitsLt_bf16_f32)
          (truncf .bf16 (transpose S256x32 [1, 0] (shapeCast S32x256 P1 shapeCasts_S32x256_S32x256) transposes_S32x256_p1_0_S256x32) bitsLt_bf16_f32)
          (constant S100x32 .f32 0x00000000#32))
        (broadcast S100x32 (Scalar.ofBits .f32 0x3F800000#32)))
      shapeCasts_S100x32_S100x32x1) broadcasts_S100x32x1_S100x32x128)

/-- At (k, q, c) the quotient is `(∑ b, H k b * (X b q c * Vt q b)) / max (∑ b, H k b * Vt q b) 1`. -/
theorem quot_apply (P0 : Vec Ideal S100x256 .f32) (P1 : Vec Ideal S32x256 .f32) (P2 : Vec Ideal S256x32x128 .f32)
    (k : Fin 100) (q : Fin 32) (c : Fin 128) :
    quot P0 P1 P2 (ix3 k q c)
      = Ideal.div (∑ b : Fin 256, P0 (ix2 k b) * (P2 (ix3 b q c) * P1 (ix2 q b)))
          (max (∑ b : Fin 256, P0 (ix2 k b) * P1 (ix2 q b)) Mesh.one) := by
  unfold quot
  rw [divf_apply, split_apply, upd_matmul, spread_den, maximumf_apply, den_matmul]
  simp only [truncf_apply, shapeCast_self, merge_apply, mulf_apply, spread_vis, broadcast_apply]
  have e : ∀ b : Fin 256, transpose S256x32 [1, 0] P1 transposes_S32x256_p1_0_S256x32 (ix2 b q) = P1 (ix2 q b) :=
    fun b => transpose_vis P1 b q
  simp only [e]
  rfl

/-- The body's blended row, before its last normalisation, as the tree of vector operations over the quotient. -/
theorem blend_eq (P0 : Vec Ideal S100x256 .f32) (P1 : Vec Ideal S32x256 .f32) (P2 : Vec Ideal S256x32x128 .f32)
    (P3 : Vec Ideal S100x32x128 .f32) :
    k0_pay2 (F := Ideal) P0 P1 P2 P3
      = addf (mulf (broadcast S100x32x128 (Scalar.ofBits .f32 0x3F666666#32)) P3)
          (mulf (broadcast S100x32x128 (Scalar.ofBits .f32 0x3DCCCCCD#32))
            (divf (quot P0 P1 P2)
              (broadcastTo S100x32x128
                (maximumf
                  (sqrt (shapeCast S100x32x1
                    (multiReduction .add [2] S100x32 (mulf (quot P0 P1 P2) (quot P0 P1 P2)) 0x00000000#32
                      reduces_S100x32x128_S100x32 (.inl rfl) rfl)
                    shapeCasts_S100x32_S100x32x1))
                  (broadcast S100x32x1 (Scalar.ofBits .f32 0x2B8CBCCC#32)))
                broadcasts_S100x32x1_S100x32x128))) := rfl

/-- At (k, q, c) the blended row is `0.9 * W k q c + 0.1 * (the quotient row normalised)`. -/
theorem blend_apply (P0 : Vec Ideal S100x256 .f32) (P1 : Vec Ideal S32x256 .f32) (P2 : Vec Ideal S256x32x128 .f32)
    (P3 : Vec Ideal S100x32x128 .f32) (k : Fin 100) (q : Fin 32) (c : Fin 128) :
    k0_pay2 (F := Ideal) P0 P1 P2 P3 (ix3 k q c)
      = Mesh.keep * P3 (ix3 k q c) + Mesh.gain * Mesh.normalize (fun c' =>
          Ideal.div (∑ b : Fin 256, P0 (ix2 k b) * (P2 (ix3 b q c') * P1 (ix2 q b)))
            (max (∑ b : Fin 256, P0 (ix2 k b) * P1 (ix2 q b)) Mesh.one)) c := by
  rw [blend_eq, addf_apply, mulf_apply, mulf_apply, divf_apply, spread_col, maximumf_apply]
  unfold Mesh.normalize
  show Mesh.keep * P3 (ix3 k q c) + Mesh.gain * Ideal.div (quot P0 P1 P2 (ix3 k q c))
      (max (Ideal.sqrt (shapeCast S100x32x1
        (multiReduction .add [2] S100x32 (mulf (quot P0 P1 P2) (quot P0 P1 P2)) 0x00000000#32
          reduces_S100x32x128_S100x32 (.inl rfl) rfl) shapeCasts_S100x32_S100x32x1 (ix3 k q (0 : Fin 1)))) Mesh.eps) = _
  rw [col_of, chan_sum]
  simp only [mulf_apply, quot_apply]

/-- THE BLOCK THE BODY LEAVES, at (k, q, c): the new weight row of class `k` and the block's vertex `q`, from the
    block's own segment sums. -/
theorem block_apply (P0 : Vec Ideal S100x256 .f32) (P1 : Vec Ideal S32x256 .f32) (P2 : Vec Ideal S256x32x128 .f32)
    (P3 : Vec Ideal S100x32x128 .f32) (k : Fin 100) (q : Fin 32) (c : Fin 128) :
    Cert.KernelIdeal.Value.E4 (F := Ideal) P0 P1 P2 P3 (ix3 k q c)
      = Mesh.rowOut (fun c' => ∑ b : Fin 256, P0 (ix2 k b) * (P2 (ix3 b q c') * P1 (ix2 q b)))
          (max (∑ b : Fin 256, P0 (ix2 k b) * P1 (ix2 q b)) Mesh.one) (fun c' => P3 (ix3 k q c')) c := by
  have e0 : Cert.KernelIdeal.Value.ix4_0 (ix3 k q c) = ix3 k q c :=
    funext fun a => Fin.ext (by match a with | ⟨0, _⟩ => rfl | ⟨1, _⟩ => rfl | ⟨2, _⟩ => rfl)
  have e1 : Cert.KernelIdeal.Value.ix4_1 (ix3 k q c) = ix2 k q :=
    funext fun a => Fin.ext (by match a with | ⟨0, _⟩ => rfl | ⟨1, _⟩ => rfl)
  show Ideal.div (k0_pay2 (F := Ideal) P0 P1 P2 P3 (Cert.KernelIdeal.Value.ix4_0 (ix3 k q c)))
      (max (Ideal.sqrt (multiReduction .add [2] S100x32
        (mulf (k0_pay2 (F := Ideal) P0 P1 P2 P3) (k0_pay2 (F := Ideal) P0 P1 P2 P3)) 0x00000000#32
        reduces_S100x32x128_S100x32 (.inl rfl) rfl (Cert.KernelIdeal.Value.ix4_1 (ix3 k q c)))) Mesh.eps) = _
  rw [e0, e1, chan_sum]
  simp only [mulf_apply, blend_apply]
  rfl

end Cert.KernelIdeal.Payload

end
-- ==== Proof.KernelValue.lean ====
/-
  The kernel's result array is the specification.

  The region's 32 grid points each take the vertices 32 t … 32 t + 31: the one-hot matrix whole, rows 32 t … of the
  transposed visibilities, and the slabs of vertices, weights and result at those vertices. What point `t` leaves in
  its block is the new weight rows of those vertices (Payload), the block's own segment sums being the whole arrays'
  because the batch axis is never tiled; the one-hot matrix is the host's `label b = k` turned into 0 / 1, so its
  product with a vector is the sum over the class (Spec). The 32 blocks tile the result array.
-/
import proofs.«419029_j28003186770312_1_alg».proof.Proof.Payload
import Idealize.ShloMosaic.Lib.StableHlo.Run

noncomputable section

namespace Cert.KernelIdeal.MeshValue

open Cert.KernelIdeal Cert.KernelIdeal.Gen Cert.KernelIdeal.Value Idealize.ShloMosaic Idealize.ShloMosaic.TcCoe Idealize.SL.Sem
open Idealize.ShloMosaic.ValueIdx Finset
open Idealize.ShloMosaic.Pipeline (Dat)

variable (m : (ℓ : Loc nD τ sig) → Buf (Elt Ideal) ℓ) (ρ : Dev nD → PrngReg)

/-! ## The two arrays the host prepares -/

/-- The transposed visibilities as the region finds them. -/
theorem visT_eq (c : Dev nD) :
    (V m c main_v7 : S1024x256.Idx → EReal)
      = transpose S1024x256 [1, 0] (m ((c : Thread nD τ).loc main_arg1)) transposes_S256x1024_S1024x256_1_0 := by
  dsimp only [Gen.V, Gen.hostOps0]
  after_results

/-- Entry (v, b) of it is the visibility of vertex `v` in batch entry `b`. -/
theorem visT_apply (c : Dev nD) (v : Fin 1024) (b : Fin 256) :
    (V m c main_v7 : S1024x256.Idx → EReal) (ix2 v b) = (m ((c : Thread nD τ).loc main_arg1) : S256x1024.Idx → EReal) (ix2 b v) := by
  rw [visT_eq]
  exact transpose_apply _ _ _ (ix2 v b) (ix2 b v) (fun a => match a with | ⟨0, _⟩ => rfl | ⟨1, _⟩ => rfl)

/-- The one-hot matrix as the region finds it: the comparison of the labels with the class numbers, as 0 / 1. -/
theorem onehot_eq (c : Dev nD) :
    (V m c main_v6 : S100x256.Idx → EReal)
      = (uitofp (F := Ideal) .f32 (cmpi .eq
          (broadcastInDim S100x256 ![0, 1] bcast_S1x256_S100x256_0_1
            (broadcastInDim S1x256 ![1] bcast_S256_S1x256_1 (m ((c : Thread nD τ).loc main_arg2))))
          (broadcastInDim S100x256 ![0, 1] bcast_S100x1_S100x256_0_1
            (broadcastInDim S100x1 ![0] bcast_S100_S100x1_0 (iotaInDim S100 32 0)))) : S100x256.Idx → EReal) := by
  dsimp only [Gen.V, Gen.hostOps0]
  after_results

/-- Entry (k, b) of it is 1 when the label of `b` is `k` and 0 otherwise. -/
theorem onehot_apply (c : Dev nD) (k : Fin 100) (b : Fin 256) :
    (V m c main_v6 : S100x256.Idx → EReal) (ix2 k b)
      = (((IntOp.cmpi .eq ((m ((c : Thread nD τ).loc main_arg2) : S256.Idx → BitVec 32) (ix1 b)) (BitVec.ofNat 32 k.val)).toNat : ℝ) : EReal) := by
  rw [onehot_eq]
  show (((IntOp.cmpi .eq
      (broadcastInDim S100x256 ![0, 1] bcast_S1x256_S100x256_0_1
        (broadcastInDim S1x256 ![1] bcast_S256_S1x256_1 (m ((c : Thread nD τ).loc main_arg2))) (ix2 k b))
      (broadcastInDim S100x256 ![0, 1] bcast_S100x1_S100x256_0_1
        (broadcastInDim S100x1 ![0] bcast_S100_S100x1_0 (iotaInDim S100 32 0)) (ix2 k b))).toNat : ℝ) : EReal) = _
  rw [broadcastInDim_apply _ bcast_S1x256_S100x256_0_1 _ (ix2 k b) (ix2 (0 : Fin 1) b) (fun a => match a with
      | ⟨0, _⟩ => by show 0 = (if (1 : Nat) = 1 then 0 else k.val); rw [if_pos rfl]
      | ⟨1, _⟩ => by show b.val = (if (256 : Nat) = 1 then 0 else b.val); rw [if_neg (by decide)]),
    broadcastInDim_apply _ bcast_S256_S1x256_1 _ (ix2 (0 : Fin 1) b) (ix1 b) (fun a => match a with
      | ⟨0, _⟩ => by show b.val = (if (256 : Nat) = 1 then 0 else b.val); rw [if_neg (by decide)]),
    broadcastInDim_apply _ bcast_S100x1_S100x256_0_1 _ (ix2 k b) (ix2 k (0 : Fin 1)) (fun a => match a with
      | ⟨0, _⟩ => by show k.val = (if (100 : Nat) = 1 then 0 else k.val); rw [if_neg (by decide)]
      | ⟨1, _⟩ => by show 0 = (if (1 : Nat) = 1 then 0 else b.val); rw [if_pos rfl]),
    broadcastInDim_apply _ bcast_S100_S100x1_0 _ (ix2 k (0 : Fin 1)) (ix1 k) (fun a => match a with
      | ⟨0, _⟩ => by show k.val = (if (100 : Nat) = 1 then 0 else k.val); rw [if_neg (by decide)])]
  rfl

/-! ## One grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The vertex `32 t + q` of tile `t`. -/
abbrev vtx (t : Fin 32) (q : Fin 32) : Fin 1024 := ⟨32 * t.val + q.val, by have := t.isLt; have := q.isLt; omega⟩

/-- WHAT ONE POINT LEAVES IN ITS BLOCK, stated over blocks as variables: if the four blocks are the one-hot matrix of the
    labels and tile `t`'s rows of the transposed visibilities, of the vertices and of the weights, then the body's
    result at a block index is the specification at the array index above it. -/
theorem point_eq (x0 : Vec Ideal S100x256 .f32) (x1 : Vec Ideal S32x256 .f32) (x2 : Vec Ideal S256x32x128 .f32)
    (x3 : Vec Ideal S100x32x128 .f32)
    (vert : S256x1024x128.Idx → EReal) (vis : S256x1024.Idx → EReal) (label : S256.Idx → BitVec 32)
    (w : S100x1024x128.Idx → EReal) (t : Fin 32)
    (h0 : ∀ (k : Fin 100) (b : Fin 256), x0 (ix2 k b)
        = (((IntOp.cmpi .eq (label (ix1 b)) (BitVec.ofNat 32 k.val)).toNat : ℝ) : EReal))
    (h1 : ∀ (q : Fin 32) (b : Fin 256), x1 (ix2 q b) = vis (ix2 b (vtx t q)))
    (h2 : ∀ (b : Fin 256) (q : Fin 32) (c : Fin 128), x2 (ix3 b q c) = vert (ix3 b (vtx t q) c))
    (h3 : ∀ (k : Fin 100) (q : Fin 32) (c : Fin 128), x3 (ix3 k q c) = w (ix3 k (vtx t q) c))
    (k : Fin 100) (q : Fin 32) (c : Fin 128) :
    out0_4 x0 x1 x2 x3 (ix3 k q c) = Mesh.G vert vis label w (ix3 k (vtx t q) c) := by
  unfold out0_4
  rw [Value.canon4_eq, View.ld_unit_zero (S := S100x256) hz2, View.ld_unit_zero (S := S32x256) hz2,
    View.ld_unit_zero (S := S256x32x128) hz3, View.ld_unit_zero (S := S100x32x128) hz3, Payload.block_apply]
  simp only [h0, h1, h2, h3]
  rw [Mesh.onehot_sum (fun b => label (ix1 b)) k (fun b => vis (ix2 b (vtx t q)))]
  have e : ∀ c' : Fin 128, (∑ b : Fin 256, (((IntOp.cmpi .eq (label (ix1 b)) (BitVec.ofNat 32 k.val)).toNat : ℝ) : EReal)
        * (vert (ix3 b (vtx t q) c') * vis (ix2 b (vtx t q))))
      = Mesh.segSum (fun b => label (ix1 b)) k (fun b => vert (ix3 b (vtx t q) c') * vis (ix2 b (vtx t q))) :=
    fun c' => Mesh.onehot_sum (fun b => label (ix1 b)) k _
  simp only [e]
  rfl

/-! ## The blocks and the array -/

/-- The printed index maps over the grid: the one-hot window stays put; the other four move along the vertex axis with
    the point and stay put on the others. -/
theorem idx_facts : ∀ t : Fin cfg0.N,
      win0_0.index t (0 : Fin 2) = 0 ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- WHAT POINT `t` WRITES BACK is block `t` of the specification of the four arguments. -/
theorem flushed_eq (c : Dev nD) (t : Fin cfg0.N) :
    (dats m 0 c).flushed 4 t = ((cfg0.win 4).blk t).view.read (Elt Ideal)
      (Mesh.G (m ((c : Thread nD τ).loc main_arg0)) (m ((c : Thread nD τ).loc main_arg1))
        (m ((c : Thread nD τ).loc main_arg2)) (m ((c : Thread nD τ).loc main_arg3))) := by
  rw [Value.flushed4]
  obtain ⟨a00, a01, a10, a11, a20, a21, a22, a30, a31, a32, a40, a41, a42⟩ := idx_facts t
  have ht : t.val < 32 := lt_of_lt_of_eq t.isLt N_0
  funext j
  obtain ⟨k, q, cc, rfl⟩ : ∃ (k : Fin 100) (q : Fin 32) (cc : Fin 128), j = ix3 k q cc := ⟨j 0, j 1, j 2, eq_ix3 j⟩
  show out0_4 (iblk m c 0 t) (iblk m c 1 t) (iblk m c 2 t) (iblk m c 3 t) (ix3 k q cc)
    = Mesh.G (m ((c : Thread nD τ).loc main_arg0)) (m ((c : Thread nD τ).loc main_arg1))
        (m ((c : Thread nD τ).loc main_arg2)) (m ((c : Thread nD τ).loc main_arg3)) (((cfg0.win 4).blk t).view.emb (ix3 k q cc))
  have hemb : ((cfg0.win 4).blk t).view.emb (ix3 k q cc) = ix3 k (vtx ⟨t.val, ht⟩ q) cc := by
    funext a; apply Fin.ext
    match a with
    | ⟨0, _⟩ => show win0_4.index t (0 : Fin 3) * 100 + 1 * k.val = k.val; omega
    | ⟨1, _⟩ => show win0_4.index t (1 : Fin 3) * 32 + 1 * q.val = 32 * t.val + q.val; omega
    | ⟨2, _⟩ => show win0_4.index t (2 : Fin 3) * 128 + 1 * cc.val = cc.val; omega
  rw [hemb]
  refine point_eq (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) ⟨t.val, ht⟩ ?_ ?_ ?_ ?_ k q cc
  · intro k b
    show V m c main_v6 (((cfg0.win 0).blk t).view.emb (ix2 k b)) = _
    have e : ((cfg0.win 0).blk t).view.emb (ix2 k b) = ix2 k b := by
      funext a; apply Fin.ext
      match a with
      | ⟨0, _⟩ => show win0_0.index t (0 : Fin 2) * 100 + 1 * k.val = k.val; omega
      | ⟨1, _⟩ => show win0_0.index t (1 : Fin 2) * 256 + 1 * b.val = b.val; omega
    rw [e]
    exact onehot_apply m c k b
  · intro q b
    show V m c main_v7 (((cfg0.win 1).blk t).view.emb (ix2 q b)) = _
    have e : ((cfg0.win 1).blk t).view.emb (ix2 q b) = ix2 (vtx ⟨t.val, ht⟩ q) b := by
      funext a; apply Fin.ext
      match a with
      | ⟨0, _⟩ => show win0_1.index t (0 : Fin 2) * 32 + 1 * q.val = 32 * t.val + q.val; omega
      | ⟨1, _⟩ => show win0_1.index t (1 : Fin 2) * 256 + 1 * b.val = b.val; omega
    rw [e]
    exact visT_apply m c _ b
  · intro b q c'
    show V m c main_arg0 (((cfg0.win 2).blk t).view.emb (ix3 b q c')) = _
    have e : ((cfg0.win 2).blk t).view.emb (ix3 b q c') = ix3 b (vtx ⟨t.val, ht⟩ q) c' := by
      funext a; apply Fin.ext
      match a with
      | ⟨0, _⟩ => show win0_2.index t (0 : Fin 3) * 256 + 1 * b.val = b.val; omega
      | ⟨1, _⟩ => show win0_2.index t (1 : Fin 3) * 32 + 1 * q.val = 32 * t.val + q.val; omega
      | ⟨2, _⟩ => show win0_2.index t (2 : Fin 3) * 128 + 1 * c'.val = c'.val; omega
    rw [e, V_main_arg0]
  · intro k q c'
    show V m c main_arg3 (((cfg0.win 3).blk t).view.emb (ix3 k q c')) = _
    have e : ((cfg0.win 3).blk t).view.emb (ix3 k q c') = ix3 k (vtx ⟨t.val, ht⟩ q) c' := by
      funext a; apply Fin.ext
      match a with
      | ⟨0, _⟩ => show win0_3.index t (0 : Fin 3) * 100 + 1 * k.val = k.val; omega
      | ⟨1, _⟩ => show win0_3.index t (1 : Fin 3) * 32 + 1 * q.val = 32 * t.val + q.val; omega
      | ⟨2, _⟩ => show win0_3.index t (2 : Fin 3) * 128 + 1 * c'.val = c'.val; omega
    rw [e, V_main_arg3]

/-- An index of the result array is in point `t`'s block iff each coordinate is in the block's range on its axis. -/
theorem mem_blk (t : Fin cfg0.N) (i : S100x1024x128.Idx) :
    i ∈ ((cfg0.win 4).blk t).view.set ↔ ∀ a : Fin 3, win0_4.index t a * S100x32x128.size a ≤ (i a).val
      ∧ (i a).val < win0_4.index t a * S100x32x128.size a + S100x32x128.size a := by
  show i ∈ ((View.whole main_v8).slice (win0_4.rect t)).set ↔ _
  rw [View.set_slice_whole, Rect.mem_set_unit]
  exact Iff.rfl

/-- The 32 blocks tile the result array: vertex `v` lies in the block of point `v / 32`. -/
theorem cover (i : S100x1024x128.Idx) :
    ∃ t : Fin cfg0.N, (cfg0.win 4).flush t = true ∧ i ∈ ((cfg0.win 4).blk t).view.set := by
  have hi0 : (i 0).val < 100 := (i 0).isLt
  have hi1 : (i 1).val < 1024 := (i 1).isLt
  have hi2 : (i 2).val < 128 := (i 2).isLt
  have hN : cfg0.N = 32 := N_0
  refine ⟨⟨(i 1).val / 32, by rw [hN]; omega⟩, flush0_4 _, ?_⟩
  rw [mem_blk]
  obtain ⟨_, _, _, _, _, _, _, _, _, _, a40, a41, a42⟩ := idx_facts ⟨(i 1).val / 32, by rw [hN]; omega⟩
  intro a
  match a with
  | ⟨0, _⟩ => show win0_4.index _ (0 : Fin 3) * 100 ≤ (i 0).val ∧ (i 0).val < win0_4.index _ (0 : Fin 3) * 100 + 100; rw [a40]; omega
  | ⟨1, _⟩ => show win0_4.index _ (1 : Fin 3) * 32 ≤ (i 1).val ∧ (i 1).val < win0_4.index _ (1 : Fin 3) * 32 + 32; rw [a41]; show (i 1).val / 32 * 32 ≤ (i 1).val ∧ (i 1).val < (i 1).val / 32 * 32 + 32; omega
  | ⟨2, _⟩ => show win0_4.index _ (2 : Fin 3) * 128 ≤ (i 2).val ∧ (i 2).val < win0_4.index _ (2 : Fin 3) * 128 + 128; rw [a42]; omega

/-- THE RESULT ARRAY after the run is the specification of the four arguments. -/
theorem final (c : Dev nD) :
    (dats m 0 c).arrAt 4 cfg0.N = Mesh.G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v8) = Mesh.G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.MeshValue

end
-- ==== Proof.LibScatter.lean ====
/-
  Row gathers and accumulating scatters read at an index, at the exact instance.

  * A row gather `[N, C]` by an index column `[E, 1]`: row `e` of the result is the operand's row at the index read
    signed and clamped into `[0, N - 1]`.
  * An accumulating row scatter into `[M, C]` by an index column `[E, 1]` of updates `[E, C]`: element `(q, k)` is the
    operand's element plus the sum of the updates `(e, k)` over the rows `e` whose index, read signed, is `q`; a row
    whose index is outside `[0, M)` lands nowhere.
  * An accumulating scatter into `[M]` by an index column `[E, 1]` of updates `[E]`: the same with no feature axis.
-/
import Idealize.ShloMosaic.PureOps.Ideal
import Idealize.ShloMosaic.PureOps.Ideal.Laws
import Idealize.ShloMosaic.Lib.ValueIdx

noncomputable section

namespace Gnn.Scatter

open Idealize.ShloMosaic Idealize.ShloMosaic.ValueIdx Finset

/-- The dimension numbers of a row gather. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of an accumulating row scatter. -/
abbrev rowScatter (M E C : Nat) (wf : ScatterDims.WF ⟨2, ![M, C]⟩ ⟨2, ![E, 1]⟩ ⟨2, ![E, C]⟩ [1] [0] [0] 1) :
    ScatterDims ⟨2, ![M, C]⟩ ⟨2, ![E, 1]⟩ ⟨2, ![E, C]⟩ where
  updateWindowDims := [1]
  insertedWindowDims := [0]
  scatterDimsToOperandDims := [0]
  indexVectorDim := 1
  wf := wf

/-- The dimension numbers of an accumulating scatter of scalars. -/
abbrev vecScatter (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

/-! ### The row gather -/

/-- THE ROW GATHER READ AT `(e, k)`, at any element type. -/
theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e ⟨0, Nat.one_pos⟩)).toInt.toNat (N - 1), by omega⟩ k) := by
  unfold Host.gather
  congr 1
  funext a
  refine Fin.ext ?_
  show (rowGather N E C wf).start (ix2 e k) idx a + (rowGather N E C wf).batchCoord (ix2 e k) a
      + (rowGather N E C wf).offCoord (ix2 e k) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowGather N E C wf).startIndexMap from List.mem_singleton.mpr rfl)]
    have hsi : (rowGather N E C wf).siIdx (ix2 e k) ⟨List.idxOf (⟨0, h0⟩ : Fin 2) (rowGather N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hn : (⟨1, h1⟩ : Fin 2) ∉ (rowGather N E C wf).startIndexMap := fun h =>
      absurd (congrArg Fin.val (List.mem_singleton.mp h)) Nat.one_ne_zero
    have hk : (⟨1, h1⟩ : Fin 2) ∈ (rowGather N E C wf).sKept :=
      (GatherDims.mem_sKept _ _).mpr ⟨fun h => absurd (congrArg Fin.val (List.mem_singleton.mp h)) Nat.one_ne_zero,
        List.not_mem_nil⟩
    unfold GatherDims.start GatherDims.offCoord
    rw [dif_neg hn, dif_pos hk, Nat.zero_add]
    rfl

/-! ### The accumulating row scatter -/

section Row
variable {M E C w : Nat} (wf : ScatterDims.WF ⟨2, ![M, C]⟩ ⟨2, ![E, 1]⟩ ⟨2, ![E, C]⟩ [1] [0] [0] 1)
  (idx : IVec ⟨2, ![E, 1]⟩ w) (e : Fin E) (k' : Fin C)

/-- On the row axis the landing coordinate of update `(e, k')` is the index of row `e` read signed. -/
private theorem row_land0 (h0 : 0 < 2) :
    (rowScatter M E C wf).start (ix2 e k') idx ⟨0, h0⟩ + ((rowScatter M E C wf).window (ix2 e k') ⟨0, h0⟩ : ℤ)
      = (idx (ix2 e ⟨0, Nat.one_pos⟩)).toInt := by
  have hm : (⟨0, h0⟩ : Fin 2) ∈ (rowScatter M E C wf).scatterDimsToOperandDims := List.mem_singleton.mpr rfl
  have hk : (⟨0, h0⟩ : Fin 2) ∉ (rowScatter M E C wf).sKept := fun h =>
    (List.mem_filter.mp h).2 |> fun h' => by simp at h'
  unfold ScatterDims.start ScatterDims.window
  rw [dif_pos hm, dif_neg hk]
  have hsi : (rowScatter M E C wf).siIdx (ix2 e k')
      ⟨List.idxOf (⟨0, h0⟩ : Fin 2) (rowScatter M E C wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

/-- On the feature axis the landing coordinate of update `(e, k')` is `k'`. -/
private theorem row_land1 (h1 : 1 < 2) :
    (rowScatter M E C wf).start (ix2 e k') idx ⟨1, h1⟩ + ((rowScatter M E C wf).window (ix2 e k') ⟨1, h1⟩ : ℤ)
      = (k'.val : ℤ) := by
  have hm : (⟨1, h1⟩ : Fin 2) ∉ (rowScatter M E C wf).scatterDimsToOperandDims := fun h =>
    absurd (congrArg Fin.val (List.mem_singleton.mp h)) Nat.one_ne_zero
  have hk : (⟨1, h1⟩ : Fin 2) ∈ (rowScatter M E C wf).sKept :=
    List.mem_filter.mpr ⟨List.mem_finRange _, by simp⟩
  unfold ScatterDims.start ScatterDims.window
  rw [dif_neg hm, dif_pos hk, Int.zero_add]
  rfl

/-- Update `(e, k')` lands on `(q, k)` exactly when row `e`'s index, read signed, is `q` and `k' = k`. -/
private theorem row_resultIdx_iff (q : Fin M) (k : Fin C) :
    (rowScatter M E C wf).resultIdx? (ix2 e k') idx = some (ix2 q k)
      ↔ (idx (ix2 e ⟨0, Nat.one_pos⟩)).toInt = (q.val : ℤ) ∧ k' = k := by
  unfold ScatterDims.resultIdx?
  constructor
  · intro h
    split at h
    · rename_i hall
      have hf := Option.some.inj h
      have e0 : ((rowScatter M E C wf).start (ix2 e k') idx ⟨0, Nat.zero_lt_two⟩
          + ((rowScatter M E C wf).window (ix2 e k') ⟨0, Nat.zero_lt_two⟩ : ℤ)).toNat = q.val :=
        congrArg Fin.val (congrFun hf ⟨0, Nat.zero_lt_two⟩)
      have e1 : ((rowScatter M E C wf).start (ix2 e k') idx ⟨1, Nat.one_lt_two⟩
          + ((rowScatter M E C wf).window (ix2 e k') ⟨1, Nat.one_lt_two⟩ : ℤ)).toNat = k.val :=
        congrArg Fin.val (congrFun hf ⟨1, Nat.one_lt_two⟩)
      have a0 := (hall ⟨0, Nat.zero_lt_two⟩).1
      rw [row_land0] at e0 a0
      rw [row_land1] at e1
      exact ⟨by omega, Fin.ext (by omega)⟩
    · exact absurd h (by simp)
  · rintro ⟨hq, rfl⟩
    have hall : ∀ a, 0 ≤ (rowScatter M E C wf).start (ix2 e k') idx a + ((rowScatter M E C wf).window (ix2 e k') a : ℤ)
        ∧ (rowScatter M E C wf).start (ix2 e k') idx a + ((rowScatter M E C wf).window (ix2 e k') a : ℤ)
          < (((⟨2, ![M, C]⟩ : Shape).size a : ℕ) : ℤ) := by
      intro a
      match a with
      | ⟨0, h0⟩ =>
        rw [row_land0, hq]
        have := q.isLt
        exact ⟨by omega, show (q.val : ℤ) < ((M : ℕ) : ℤ) by omega⟩
      | ⟨1, h1⟩ =>
        rw [row_land1]
        have := k'.isLt
        exact ⟨by omega, show (k'.val : ℤ) < ((C : ℕ) : ℤ) by omega⟩
    rw [dif_pos hall]
    congr 1
    funext a
    refine Fin.ext ?_
    match a with
    | ⟨0, h0⟩ =>
      show ((rowScatter M E C wf).start (ix2 e k') idx ⟨0, h0⟩
        + ((rowScatter M E C wf).window (ix2 e k') ⟨0, h0⟩ : ℤ)).toNat = q.val
      rw [row_land0, hq]; omega
    | ⟨1, h1⟩ =>
      show ((rowScatter M E C wf).start (ix2 e k') idx ⟨1, h1⟩
        + ((rowScatter M E C wf).window (ix2 e k') ⟨1, h1⟩ : ℤ)).toNat = k'.val
      rw [row_land1]; omega

end Row

/-- THE ACCUMULATING ROW SCATTER READ AT `(q, k)`. -/
theorem scatterAdd_row_apply {M E C w : Nat}
    (wf : ScatterDims.WF ⟨2, ![M, C]⟩ ⟨2, ![E, 1]⟩ ⟨2, ![E, C]⟩ [1] [0] [0] 1)
    (x : (⟨2, ![M, C]⟩ : Shape).Idx → EReal) (idx : IVec ⟨2, ![E, 1]⟩ w) (upd : (⟨2, ![E, C]⟩ : Shape).Idx → EReal)
    (q : Fin M) (k : Fin C) :
    Ideal.hostScatterAdd (rowScatter M E C wf) x idx upd (ix2 q k)
      = x (ix2 q k) + ∑ e ∈ univ.filter (fun e : Fin E => (idx (ix2 e ⟨0, Nat.one_pos⟩)).toInt = (q.val : ℤ)), upd (ix2 e k) := by
  unfold Ideal.hostScatterAdd
  congr 1
  refine Finset.sum_nbij' (fun j => (⟨(j ⟨0, Nat.zero_lt_two⟩).val, idx2_lt0 j⟩ : Fin E)) (fun e => ix2 e k) ?_ ?_ ?_ ?_ ?_
  · intro j hj
    have hj' := (Finset.mem_filter.mp hj).2
    rw [eq_ix2 j] at hj'
    exact Finset.mem_filter.mpr ⟨Finset.mem_univ _, ((row_resultIdx_iff wf idx _ _ q k).mp hj').1⟩
  · intro e he
    exact Finset.mem_filter.mpr ⟨Finset.mem_univ _,
      (row_resultIdx_iff wf idx e k q k).mpr ⟨(Finset.mem_filter.mp he).2, rfl⟩⟩
  · intro j hj
    have hj' := (Finset.mem_filter.mp hj).2
    rw [eq_ix2 j] at hj'
    have hk := ((row_resultIdx_iff wf idx _ _ q k).mp hj').2
    conv_rhs => rw [eq_ix2 j]
    rw [← hk]
    rfl
  · intro e _
    rfl
  · intro j hj
    have hj' := (Finset.mem_filter.mp hj).2
    rw [eq_ix2 j] at hj'
    have hk := ((row_resultIdx_iff wf idx _ _ q k).mp hj').2
    conv_lhs => rw [eq_ix2 j]
    rw [← hk]
    rfl

/-! ### The accumulating scalar scatter -/

section Vec
variable {M E w : Nat} (wf : ScatterDims.WF ⟨1, ![M]⟩ ⟨2, ![E, 1]⟩ ⟨1, ![E]⟩ [] [0] [0] 1)
  (idx : IVec ⟨2, ![E, 1]⟩ w) (e : Fin E)

/-- The landing coordinate of update `e` is the index of row `e` read signed. -/
private theorem vec_land0 (h0 : 0 < 1) :
    (vecScatter M E wf).start (ix1 e) idx ⟨0, h0⟩ + ((vecScatter M E wf).window (ix1 e) ⟨0, h0⟩ : ℤ)
      = (idx (ix2 e ⟨0, Nat.one_pos⟩)).toInt := by
  have hm : (⟨0, h0⟩ : Fin 1) ∈ (vecScatter M E wf).scatterDimsToOperandDims := List.mem_singleton.mpr rfl
  have hk : (⟨0, h0⟩ : Fin 1) ∉ (vecScatter M E wf).sKept := fun h =>
    (List.mem_filter.mp h).2 |> fun h' => by simp at h'
  unfold ScatterDims.start ScatterDims.window
  rw [dif_pos hm, dif_neg hk]
  have hsi : (vecScatter M E wf).siIdx (ix1 e)
      ⟨List.idxOf (⟨0, h0⟩ : Fin 1) (vecScatter M E wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

/-- Update `e` lands on `q` exactly when row `e`'s index, read signed, is `q`. -/
private theorem vec_resultIdx_iff (q : Fin M) :
    (vecScatter M E wf).resultIdx? (ix1 e) idx = some (ix1 q)
      ↔ (idx (ix2 e ⟨0, Nat.one_pos⟩)).toInt = (q.val : ℤ) := by
  unfold ScatterDims.resultIdx?
  constructor
  · intro h
    split at h
    · rename_i hall
      have hf := Option.some.inj h
      have e0 : ((vecScatter M E wf).start (ix1 e) idx ⟨0, Nat.one_pos⟩
          + ((vecScatter M E wf).window (ix1 e) ⟨0, Nat.one_pos⟩ : ℤ)).toNat = q.val :=
        congrArg Fin.val (congrFun hf ⟨0, Nat.one_pos⟩)
      have a0 := (hall ⟨0, Nat.one_pos⟩).1
      rw [vec_land0] at e0 a0
      omega
    · exact absurd h (by simp)
  · intro hq
    have hall : ∀ a, 0 ≤ (vecScatter M E wf).start (ix1 e) idx a + ((vecScatter M E wf).window (ix1 e) a : ℤ)
        ∧ (vecScatter M E wf).start (ix1 e) idx a + ((vecScatter M E wf).window (ix1 e) a : ℤ)
          < (((⟨1, ![M]⟩ : Shape).size a : ℕ) : ℤ) := by
      intro a
      match a with
      | ⟨0, h0⟩ =>
        rw [vec_land0, hq]
        have := q.isLt
        exact ⟨by omega, show (q.val : ℤ) < ((M : ℕ) : ℤ) by omega⟩
    rw [dif_pos hall]
    congr 1
    funext a
    refine Fin.ext ?_
    match a with
    | ⟨0, h0⟩ =>
      show ((vecScatter M E wf).start (ix1 e) idx ⟨0, h0⟩
        + ((vecScatter M E wf).window (ix1 e) ⟨0, h0⟩ : ℤ)).toNat = q.val
      rw [vec_land0, hq]; omega

end Vec

/-- THE ACCUMULATING SCALAR SCATTER READ AT `q`. -/
theorem scatterAdd_vec_apply {M E w : Nat}
    (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w) (upd : (⟨1, ![E]⟩ : Shape).Idx → EReal) (q : Fin M) :
    Ideal.hostScatterAdd (vecScatter M E wf) x idx upd (ix1 q)
      = x (ix1 q) + ∑ e ∈ univ.filter (fun e : Fin E => (idx (ix2 e ⟨0, Nat.one_pos⟩)).toInt = (q.val : ℤ)), upd (ix1 e) := by
  unfold Ideal.hostScatterAdd
  congr 1
  refine Finset.sum_nbij' (fun j => (⟨(j ⟨0, Nat.one_pos⟩).val, (j ⟨0, Nat.one_pos⟩).isLt⟩ : Fin E)) (fun e => ix1 e)
    ?_ ?_ ?_ ?_ ?_
  · intro j hj
    have hj' := (Finset.mem_filter.mp hj).2
    rw [eq_ix1 j] at hj'
    exact Finset.mem_filter.mpr ⟨Finset.mem_univ _, (vec_resultIdx_iff wf idx _ q).mp hj'⟩
  · intro e he
    exact Finset.mem_filter.mpr ⟨Finset.mem_univ _, (vec_resultIdx_iff wf idx e q).mpr (Finset.mem_filter.mp he).2⟩
  · intro j _
    exact (eq_ix1 j).symm
  · intro e _
    rfl
  · intro j _
    exact congrArg upd (eq_ix1 j)

end Gnn.Scatter

end
-- ==== Proof.LibScatter3.lean ====
/-
  An accumulating scatter of slabs read at an index, at the exact instance.

  The operand has shape [M, A, C], the index column shape [E, 1] and the updates shape [E, A, C]: update slab e, an
  [A, C] block, is added into the operand's slab whose leading coordinate is the index of row e read signed; a slab
  whose index is outside [0, M) lands nowhere. So element (q, a, k) of the result is the operand's element plus the
  sum of the updates (e, a, k) over the rows e whose index, read signed, is q.
-/
import Idealize.ShloMosaic.PureOps.Ideal
import Idealize.ShloMosaic.PureOps.Ideal.Laws
import Idealize.ShloMosaic.Lib.ValueIdx

noncomputable section

namespace Gnn.Scatter3

open Idealize.ShloMosaic Idealize.ShloMosaic.ValueIdx Finset

/-- The dimension numbers of an accumulating scatter of [A, C] slabs along the leading axis. -/
abbrev slabScatter (M E A C : Nat) (wf : ScatterDims.WF ⟨3, ![M, A, C]⟩ ⟨2, ![E, 1]⟩ ⟨3, ![E, A, C]⟩ [1, 2] [0] [0] 1) :
    ScatterDims ⟨3, ![M, A, C]⟩ ⟨2, ![E, 1]⟩ ⟨3, ![E, A, C]⟩ where
  updateWindowDims := [1, 2]
  insertedWindowDims := [0]
  scatterDimsToOperandDims := [0]
  indexVectorDim := 1
  wf := wf

/-- A rank-3 index's leading coordinate is below the leading extent. -/
private theorem slab_lt0 {n0 n1 n2 : Nat} (j : (⟨3, ![n0, n1, n2]⟩ : Shape).Idx) : (j 0).val < n0 := (j 0).isLt

section Slab
variable {M E A C w : Nat} (wf : ScatterDims.WF ⟨3, ![M, A, C]⟩ ⟨2, ![E, 1]⟩ ⟨3, ![E, A, C]⟩ [1, 2] [0] [0] 1)
  (idx : IVec ⟨2, ![E, 1]⟩ w) (e : Fin E) (a' : Fin A) (k' : Fin C)

/-- On the leading axis the landing coordinate of update (e, a', k') is the index of row e read signed. -/
private theorem slab_land0 (h0 : 0 < 3) :
    (slabScatter M E A C wf).start (ix3 e a' k') idx ⟨0, h0⟩
        + ((slabScatter M E A C wf).window (ix3 e a' k') ⟨0, h0⟩ : ℤ)
      = (idx (ix2 e ⟨0, Nat.one_pos⟩)).toInt := by
  have hm : (⟨0, h0⟩ : Fin 3) ∈ (slabScatter M E A C wf).scatterDimsToOperandDims := List.mem_singleton.mpr rfl
  have hk : (⟨0, h0⟩ : Fin 3) ∉ (slabScatter M E A C wf).sKept := fun h =>
    (List.mem_filter.mp h).2 |> fun h' => by simp at h'
  unfold ScatterDims.start ScatterDims.window
  rw [dif_pos hm, dif_neg hk]
  have hsi : (slabScatter M E A C wf).siIdx (ix3 e a' k')
      ⟨List.idxOf (⟨0, h0⟩ : Fin 3) (slabScatter M E A C wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

/-- On the middle axis the landing coordinate of update (e, a', k') is a'. -/
private theorem slab_land1 (h1 : 1 < 3) :
    (slabScatter M E A C wf).start (ix3 e a' k') idx ⟨1, h1⟩
        + ((slabScatter M E A C wf).window (ix3 e a' k') ⟨1, h1⟩ : ℤ)
      = (a'.val : ℤ) := by
  have hm : (⟨1, h1⟩ : Fin 3) ∉ (slabScatter M E A C wf).scatterDimsToOperandDims := fun h =>
    absurd (congrArg Fin.val (List.mem_singleton.mp h)) Nat.one_ne_zero
  have hk : (⟨1, h1⟩ : Fin 3) ∈ (slabScatter M E A C wf).sKept :=
    List.mem_filter.mpr ⟨List.mem_finRange _, by simp⟩
  unfold ScatterDims.start ScatterDims.window
  rw [dif_neg hm, dif_pos hk, Int.zero_add]
  rfl

/-- On the last axis the landing coordinate of update (e, a', k') is k'. -/
private theorem slab_land2 (h2 : 2 < 3) :
    (slabScatter M E A C wf).start (ix3 e a' k') idx ⟨2, h2⟩
        + ((slabScatter M E A C wf).window (ix3 e a' k') ⟨2, h2⟩ : ℤ)
      = (k'.val : ℤ) := by
  have hm : (⟨2, h2⟩ : Fin 3) ∉ (slabScatter M E A C wf).scatterDimsToOperandDims := fun h =>
    absurd (congrArg Fin.val (List.mem_singleton.mp h)) (by decide : (2 : ℕ) ≠ 0)
  have hk : (⟨2, h2⟩ : Fin 3) ∈ (slabScatter M E A C wf).sKept :=
    List.mem_filter.mpr ⟨List.mem_finRange _, by simp⟩
  unfold ScatterDims.start ScatterDims.window
  rw [dif_neg hm, dif_pos hk, Int.zero_add]
  rfl

/-- Update (e, a', k') lands on (q, a, k) exactly when row e's index, read signed, is q, a' = a and k' = k. -/
private theorem slab_resultIdx_iff (q : Fin M) (a : Fin A) (k : Fin C) :
    (slabScatter M E A C wf).resultIdx? (ix3 e a' k') idx = some (ix3 q a k)
      ↔ (idx (ix2 e ⟨0, Nat.one_pos⟩)).toInt = (q.val : ℤ) ∧ a' = a ∧ k' = k := by
  have h0 : (0 : ℕ) < 3 := by decide
  have h1 : (1 : ℕ) < 3 := by decide
  have h2 : (2 : ℕ) < 3 := by decide
  unfold ScatterDims.resultIdx?
  constructor
  · intro h
    split at h
    · rename_i hall
      have hf := Option.some.inj h
      have e0 : ((slabScatter M E A C wf).start (ix3 e a' k') idx ⟨0, h0⟩
          + ((slabScatter M E A C wf).window (ix3 e a' k') ⟨0, h0⟩ : ℤ)).toNat = q.val :=
        congrArg Fin.val (congrFun hf ⟨0, h0⟩)
      have e1 : ((slabScatter M E A C wf).start (ix3 e a' k') idx ⟨1, h1⟩
          + ((slabScatter M E A C wf).window (ix3 e a' k') ⟨1, h1⟩ : ℤ)).toNat = a.val :=
        congrArg Fin.val (congrFun hf ⟨1, h1⟩)
      have e2 : ((slabScatter M E A C wf).start (ix3 e a' k') idx ⟨2, h2⟩
          + ((slabScatter M E A C wf).window (ix3 e a' k') ⟨2, h2⟩ : ℤ)).toNat = k.val :=
        congrArg Fin.val (congrFun hf ⟨2, h2⟩)
      have a0 := (hall ⟨0, h0⟩).1
      rw [slab_land0] at e0 a0
      rw [slab_land1] at e1
      rw [slab_land2] at e2
      exact ⟨by omega, Fin.ext (by omega), Fin.ext (by omega)⟩
    · exact absurd h (by simp)
  · rintro ⟨hq, rfl, rfl⟩
    have hall : ∀ b, 0 ≤ (slabScatter M E A C wf).start (ix3 e a' k') idx b
          + ((slabScatter M E A C wf).window (ix3 e a' k') b : ℤ)
        ∧ (slabScatter M E A C wf).start (ix3 e a' k') idx b
          + ((slabScatter M E A C wf).window (ix3 e a' k') b : ℤ)
          < (((⟨3, ![M, A, C]⟩ : Shape).size b : ℕ) : ℤ) := by
      intro b
      match b with
      | ⟨0, h0⟩ =>
        rw [slab_land0, hq]
        have := q.isLt
        exact ⟨by omega, show (q.val : ℤ) < ((M : ℕ) : ℤ) by omega⟩
      | ⟨1, h1⟩ =>
        rw [slab_land1]
        have := a'.isLt
        exact ⟨by omega, show (a'.val : ℤ) < ((A : ℕ) : ℤ) by omega⟩
      | ⟨2, h2⟩ =>
        rw [slab_land2]
        have := k'.isLt
        exact ⟨by omega, show (k'.val : ℤ) < ((C : ℕ) : ℤ) by omega⟩
    rw [dif_pos hall]
    congr 1
    funext b
    refine Fin.ext ?_
    match b with
    | ⟨0, h0⟩ =>
      show ((slabScatter M E A C wf).start (ix3 e a' k') idx ⟨0, h0⟩
        + ((slabScatter M E A C wf).window (ix3 e a' k') ⟨0, h0⟩ : ℤ)).toNat = q.val
      rw [slab_land0, hq]; omega
    | ⟨1, h1⟩ =>
      show ((slabScatter M E A C wf).start (ix3 e a' k') idx ⟨1, h1⟩
        + ((slabScatter M E A C wf).window (ix3 e a' k') ⟨1, h1⟩ : ℤ)).toNat = a'.val
      rw [slab_land1]; omega
    | ⟨2, h2⟩ =>
      show ((slabScatter M E A C wf).start (ix3 e a' k') idx ⟨2, h2⟩
        + ((slabScatter M E A C wf).window (ix3 e a' k') ⟨2, h2⟩ : ℤ)).toNat = k'.val
      rw [slab_land2]; omega

end Slab

/-- THE ACCUMULATING SLAB SCATTER READ AT (q, a, k): the operand's element plus the sum of the updates (e, a, k) over
    the rows e whose index, read signed, is q. -/
theorem scatterAdd_slab_apply {M E A C w : Nat}
    (wf : ScatterDims.WF ⟨3, ![M, A, C]⟩ ⟨2, ![E, 1]⟩ ⟨3, ![E, A, C]⟩ [1, 2] [0] [0] 1)
    (x : (⟨3, ![M, A, C]⟩ : Shape).Idx → EReal) (idx : IVec ⟨2, ![E, 1]⟩ w) (upd : (⟨3, ![E, A, C]⟩ : Shape).Idx → EReal)
    (q : Fin M) (a : Fin A) (k : Fin C) :
    Ideal.hostScatterAdd (slabScatter M E A C wf) x idx upd (ix3 q a k)
      = x (ix3 q a k) + ∑ e ∈ univ.filter (fun e : Fin E => (idx (ix2 e ⟨0, Nat.one_pos⟩)).toInt = (q.val : ℤ)), upd (ix3 e a k) := by
  unfold Ideal.hostScatterAdd
  congr 1
  refine Finset.sum_nbij' (fun j => (⟨(j 0).val, slab_lt0 j⟩ : Fin E)) (fun e => ix3 e a k)
    ?_ ?_ ?_ ?_ ?_
  · intro j hj
    have hj' := (Finset.mem_filter.mp hj).2
    rw [eq_ix3 j] at hj'
    exact Finset.mem_filter.mpr ⟨Finset.mem_univ _, ((slab_resultIdx_iff wf idx _ _ _ q a k).mp hj').1⟩
  · intro e he
    exact Finset.mem_filter.mpr ⟨Finset.mem_univ _,
      (slab_resultIdx_iff wf idx e a k q a k).mpr ⟨(Finset.mem_filter.mp he).2, rfl, rfl⟩⟩
  · intro j hj
    have hj' := (Finset.mem_filter.mp hj).2
    rw [eq_ix3 j] at hj'
    obtain ⟨_, ha, hk⟩ := (slab_resultIdx_iff wf idx _ _ _ q a k).mp hj'
    conv_rhs => rw [eq_ix3 j]
    rw [← ha, ← hk]
    rfl
  · intro e _
    rfl
  · intro j hj
    have hj' := (Finset.mem_filter.mp hj).2
    rw [eq_ix3 j] at hj'
    obtain ⟨_, ha, hk⟩ := (slab_resultIdx_iff wf idx _ _ _ q a k).mp hj'
    conv_lhs => rw [eq_ix3 j]
    rw [← ha, ← hk]
    rfl

end Gnn.Scatter3

end
-- ==== Proof.RefValue.lean ====
/-
  The reference's result is the specification, index by index.

  The reference computes, for a class k, a vertex v and a channel c:
    * the weighted vertices  vertices b v c * visible b v,
    * their segment sum over the batch entries b labelled k (an accumulating scatter of [1024, 128] slabs into a zero
      array by the label column), and the visibility count over the same entries (an accumulating row scatter),
    * the mean row: the segment sum over max (count) 1,
    * the mean row scaled to Euclidean length one along the channels (its length clamped below by ε),
    * the blend 0.9 * weight + 0.1 * (that unit row), scaled to length one again.
  Each stage is read at a coordinate triple (or pair) below, one small lemma per stage; the last one is the
  specification's new weight row.
-/
import proofs.«419029_j28003186770312_1_alg».proof.Proof.Gen.ReferenceIdeal.Read
import proofs.«419029_j28003186770312_1_alg».proof.Proof.LibScatter
import proofs.«419029_j28003186770312_1_alg».proof.Proof.LibScatter3
import proofs.«419029_j28003186770312_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Finset

variable (x0 : (⟨S256x1024x128, .f32⟩ : BufTy).Contents (Elt Ideal)) (x1 : (⟨S256x1024, .f32⟩ : BufTy).Contents (Elt Ideal))
  (x2 : (⟨S256, .i32⟩ : BufTy).Contents (Elt Ideal)) (x3 : (⟨S100x1024x128, .f32⟩ : BufTy).Contents (Elt Ideal))

/-- The weighted vertices: vertex (b, v, c) times the visibility of (b, v). -/
private theorem weighted_at (b : Fin 256) (v : Fin 1024) (c : Fin 128) :
    val_main_v2 (F := Ideal) x0 x1 (ix3 b v c) = x0 (ix3 b v c) * x1 (ix2 b v) := by
  rw [val_main_v2_apply, val_main_v1_apply, val_main_v0_apply, Ideal.mulf_def]
  congr 2
  exact funext fun a => Fin.ext (by match a with | ⟨0, _⟩ => rfl | ⟨1, _⟩ => rfl)

/-- The label column of the first scatter, read at row e, is the label of e. -/
private theorem label_at (e : Fin 256) :
    val_main_v4 (F := Ideal) x2 (ix2 e ⟨0, Nat.one_pos⟩) = x2 (ix1 e) := by
  rw [val_main_v4_apply]
  congr 1
  exact funext fun a => Fin.ext (by match a with | ⟨0, _⟩ => rfl)

/-- The label column of the second scatter, read at row e, is the label of e. -/
private theorem label_at' (e : Fin 256) :
    val_main_v7 (F := Ideal) x2 (ix2 e ⟨0, Nat.one_pos⟩) = x2 (ix1 e) := by
  rw [val_main_v7_apply]
  congr 1
  exact funext fun a => Fin.ext (by match a with | ⟨0, _⟩ => rfl)

/-- The segment sum of the weighted vertices: over the batch entries labelled k, the sum of vertex times visibility. -/
private theorem segsum_at (k : Fin 100) (v : Fin 1024) (c : Fin 128) :
    val_main_v5 (F := Ideal) x0 x1 x2 (ix3 k v c)
      = Mesh.segSum (fun b => x2 (ix1 b)) k (fun b => x0 (ix3 b v c) * x1 (ix2 b v)) := by
  unfold val_main_v5
  show Ideal.hostScatterAdd (Gnn.Scatter3.slabScatter 100 256 1024 128 scatter_S100x1024x128_S256x1_S256x1024x128_12_0_0_1_wf)
    (val_main_v3 (F := Ideal)) (val_main_v4 (F := Ideal) x2) (val_main_v2 (F := Ideal) x0 x1) (ix3 k v c) = _
  rw [Gnn.Scatter3.scatterAdd_slab_apply, val_main_v3_apply, val_main_cst_apply, Ideal.ofBits_def, Ideal.ofBits_zero_f32,
    zero_add]
  unfold Mesh.segSum
  simp only [label_at, weighted_at]

/-- The visibility count: over the batch entries labelled k, the sum of the visibilities of vertex v. -/
private theorem count_at (k : Fin 100) (v : Fin 1024) :
    val_main_v8 (F := Ideal) x1 x2 (ix2 k v) = Mesh.segSum (fun b => x2 (ix1 b)) k (fun b => x1 (ix2 b v)) := by
  unfold val_main_v8
  show Ideal.hostScatterAdd (Gnn.Scatter.rowScatter 100 256 1024 scatter_S100x1024_S256x1_S256x1024_1_0_0_1_wf)
    (val_main_v6 (F := Ideal)) (val_main_v7 (F := Ideal) x2) x1 (ix2 k v) = _
  rw [Gnn.Scatter.scatterAdd_row_apply, val_main_v6_apply, val_main_cst_0_apply, Ideal.ofBits_def, Ideal.ofBits_zero_f32,
    zero_add]
  unfold Mesh.segSum
  simp only [label_at']

/-- The clamped denominator: the visibility count, at least one. -/
private theorem den_at (k : Fin 100) (v : Fin 1024) :
    val_main_v10 (F := Ideal) x1 x2 (ix2 k v)
      = max (Mesh.segSum (fun b => x2 (ix1 b)) k (fun b => x1 (ix2 b v))) Mesh.one := by
  rw [val_main_v10_apply, count_at, val_main_v9_apply, val_main_cst_1_apply, Ideal.maximumf_def, Ideal.ofBits_def]

/-- The clamped denominator spread along the channels. -/
private theorem den_bcast_at (k : Fin 100) (v : Fin 1024) (c : Fin 128) :
    val_main_v12 (F := Ideal) x1 x2 (ix3 k v c)
      = max (Mesh.segSum (fun b => x2 (ix1 b)) k (fun b => x1 (ix2 b v))) Mesh.one := by
  rw [val_main_v12_apply, val_main_v11_apply, ← den_at]
  congr 1
  exact funext fun a => Fin.ext (by match a with | ⟨0, _⟩ => rfl | ⟨1, _⟩ => rfl)

/-- The mean row of class k at vertex v: channel by channel, the segment sum of the weighted vertices over the clamped
    denominator. -/
private abbrev meanRow (k : Fin 100) (v : Fin 1024) : Fin 128 → EReal := fun c =>
  Ideal.div (Mesh.segSum (fun b => x2 (ix1 b)) k (fun b => x0 (ix3 b v c) * x1 (ix2 b v)))
    (max (Mesh.segSum (fun b => x2 (ix1 b)) k (fun b => x1 (ix2 b v))) Mesh.one)

/-- The quotient stage is the mean row. -/
private theorem mean_at (k : Fin 100) (v : Fin 1024) (c : Fin 128) :
    val_main_v13 (F := Ideal) x0 x1 x2 (ix3 k v c) = meanRow x0 x1 x2 k v c := by
  rw [val_main_v13_apply, segsum_at, den_bcast_at, Ideal.hostDivf_def]

/-- The squared length of the mean row. -/
private theorem mean_sumsq_at (k : Fin 100) (v : Fin 1024) :
    val_main_v15 (F := Ideal) x0 x1 x2 (ix2 k v) = ∑ c', meanRow x0 x1 x2 k v c' * meanRow x0 x1 x2 k v c' := by
  rw [val_main_v15_apply, val_main_cst_2_apply, Ideal.ofBits_def, Ideal.ofBits_zero_f32, zero_add]
  refine Finset.sum_congr rfl fun c' _ => ?_
  have hi : idx_main_v15 (ix2 k v) c' = ix3 k v c' :=
    funext fun a => Fin.ext (by match a with | ⟨0, _⟩ => rfl | ⟨1, _⟩ => rfl | ⟨2, _⟩ => rfl)
  rw [hi, val_main_v14_apply, mean_at, Ideal.mulf_def]

/-- The clamped length of the mean row, spread along the channels. -/
private theorem mean_len_at (k : Fin 100) (v : Fin 1024) (c : Fin 128) :
    val_main_v20 (F := Ideal) x0 x1 x2 (ix3 k v c)
      = max (Ideal.sqrt (∑ c', meanRow x0 x1 x2 k v c' * meanRow x0 x1 x2 k v c')) Mesh.eps := by
  have hi : idx_main_v16 (idx_main_v20 (ix3 k v c)) = ix2 k v :=
    funext fun a => Fin.ext (by match a with | ⟨0, _⟩ => rfl | ⟨1, _⟩ => rfl)
  rw [val_main_v20_apply, val_main_v19_apply, val_main_v17_apply, val_main_v16_apply, val_main_v18_apply,
    val_main_cst_3_apply, hi, mean_sumsq_at, Ideal.maximumf_def, Ideal.hostUnary_sqrt_def, Ideal.ofBits_def]

/-- The first normalisation: the mean row scaled to length one. -/
private theorem unit_at (k : Fin 100) (v : Fin 1024) (c : Fin 128) :
    val_main_v21 (F := Ideal) x0 x1 x2 (ix3 k v c) = Mesh.normalize (meanRow x0 x1 x2 k v) c := by
  rw [val_main_v21_apply, mean_at, mean_len_at, Ideal.hostDivf_def]
  rfl

/-- The blended row of class k at vertex v: the stored weight row kept at its share plus the unit mean row at its gain. -/
private abbrev blendRow (k : Fin 100) (v : Fin 1024) : Fin 128 → EReal := fun c =>
  Mesh.keep * x3 (ix3 k v c) + Mesh.gain * Mesh.normalize (meanRow x0 x1 x2 k v) c

/-- The blend stage is the blended row. -/
private theorem blend_at (k : Fin 100) (v : Fin 1024) (c : Fin 128) :
    val_main_v26 (F := Ideal) x0 x1 x2 x3 (ix3 k v c) = blendRow x0 x1 x2 x3 k v c := by
  rw [val_main_v26_apply, val_main_v23_apply, val_main_v25_apply, val_main_v22_apply, val_main_v24_apply,
    val_main_cst_4_apply, val_main_cst_5_apply, unit_at, Ideal.addf_def, Ideal.mulf_def, Ideal.mulf_def,
    Ideal.ofBits_def, Ideal.ofBits_def]

/-- The squared length of the blended row. -/
private theorem blend_sumsq_at (k : Fin 100) (v : Fin 1024) :
    val_main_v28 (F := Ideal) x0 x1 x2 x3 (ix2 k v)
      = ∑ c', blendRow x0 x1 x2 x3 k v c' * blendRow x0 x1 x2 x3 k v c' := by
  rw [val_main_v28_apply, val_main_cst_6_apply, Ideal.ofBits_def, Ideal.ofBits_zero_f32, zero_add]
  refine Finset.sum_congr rfl fun c' _ => ?_
  have hi : idx_main_v28 (ix2 k v) c' = ix3 k v c' :=
    funext fun a => Fin.ext (by match a with | ⟨0, _⟩ => rfl | ⟨1, _⟩ => rfl | ⟨2, _⟩ => rfl)
  rw [hi, val_main_v27_apply, blend_at, Ideal.mulf_def]

/-- The clamped length of the blended row, spread along the channels. -/
private theorem blend_len_at (k : Fin 100) (v : Fin 1024) (c : Fin 128) :
    val_main_v33 (F := Ideal) x0 x1 x2 x3 (ix3 k v c)
      = max (Ideal.sqrt (∑ c', blendRow x0 x1 x2 x3 k v c' * blendRow x0 x1 x2 x3 k v c')) Mesh.eps := by
  have hi : idx_main_v29 (idx_main_v33 (ix3 k v c)) = ix2 k v :=
    funext fun a => Fin.ext (by match a with | ⟨0, _⟩ => rfl | ⟨1, _⟩ => rfl)
  rw [val_main_v33_apply, val_main_v32_apply, val_main_v30_apply, val_main_v29_apply, val_main_v31_apply,
    val_main_cst_7_apply, hi, blend_sumsq_at, Ideal.maximumf_def, Ideal.hostUnary_sqrt_def, Ideal.ofBits_def]

/-- The second normalisation: the blended row scaled to length one. -/
private theorem out_at (k : Fin 100) (v : Fin 1024) (c : Fin 128) :
    val_main_v34 (F := Ideal) x0 x1 x2 x3 (ix3 k v c) = Mesh.normalize (blendRow x0 x1 x2 x3 k v) c := by
  rw [val_main_v34_apply, blend_at, blend_len_at, Ideal.hostDivf_def]
  rfl

/-- THE REFERENCE'S RESULT IS THE SPECIFICATION: at every class, vertex and channel the last stage of the reference is
    the new weight row of the specification. -/
theorem ref_eq_G (x0 : (⟨S256x1024x128, .f32⟩ : BufTy).Contents (Elt Ideal)) (x1 : (⟨S256x1024, .f32⟩ : BufTy).Contents (Elt Ideal))
    (x2 : (⟨S256, .i32⟩ : BufTy).Contents (Elt Ideal)) (x3 : (⟨S100x1024x128, .f32⟩ : BufTy).Contents (Elt Ideal)) :
    val_main_v34 (F := Ideal) x0 x1 x2 x3 = Mesh.G x0 x1 x2 x3 := by
  funext i
  obtain ⟨k, v, c, rfl⟩ : ∃ (k : Fin 100) (v : Fin 1024) (c : Fin 128), i = ix3 k v c := ⟨i 0, i 1, i 2, eq_ix3 i⟩
  rw [out_at]
  rfl

end Cert.ReferenceIdeal.RefValue

end
-- ==== Proof.lean ====
/-
  A vertex memory updated from a labelled batch: for every class `k`, vertex `v` and channel `c`, the
  visibility-weighted vertices of the batch entries labelled `k` are summed and divided by `max (their visibility
  count) 1`; the row along `c` is scaled to Euclidean length one (a length under `ε` replaced by `ε`), blended
  `0.9 * weight + 0.1 * row`, and scaled to length one again (Proof/Spec.lean, `Mesh.G`).

  The kernel forms the segment sums as products with the one-hot matrix of the labels, 32 vertices per grid point;
  the reference as accumulating scatters by the label column. On the extended reals a one-hot row times a vector is
  the sum over that class (`0 * x = 0` for every `x`, so no finiteness is used), a label outside `[0, 100)` matches no
  class on either side, and everything after the segment sums is the same operation by operation. So both result
  arrays are `Mesh.G` of the four arguments: the kernel's by Proof/KernelValue.lean (over Proof/Payload.lean), the
  reference's by Proof/RefValue.lean (over the two scatter lemmas).
  The three frames are the generated ones (the reference's is its run with the result dropped); the idealization
  rewrote nothing, so `preserves` is trivial.
-/
import proofs.«419029_j28003186770312_1_alg».proof.Defs
import proofs.«419029_j28003186770312_1_alg».proof.Proof.Gen.Kernel
import proofs.«419029_j28003186770312_1_alg».proof.Proof.Gen.Kernel.Skeleton
import proofs.«419029_j28003186770312_1_alg».proof.Proof.Gen.Kernel.Launch
import proofs.«419029_j28003186770312_1_alg».proof.Proof.Gen.Kernel.Points
import proofs.«419029_j28003186770312_1_alg».proof.Proof.Gen.Kernel.Frame
import proofs.«419029_j28003186770312_1_alg».proof.Proof.Gen.KernelIdeal
import proofs.«419029_j28003186770312_1_alg».proof.Proof.Gen.KernelIdeal.Skeleton
import proofs.«419029_j28003186770312_1_alg».proof.Proof.Gen.KernelIdeal.Launch
import proofs.«419029_j28003186770312_1_alg».proof.Proof.Gen.KernelIdeal.Points
import proofs.«419029_j28003186770312_1_alg».proof.Proof.Gen.KernelIdeal.Frame
import proofs.«419029_j28003186770312_1_alg».proof.Proof.Gen.ReferenceIdeal
import proofs.«419029_j28003186770312_1_alg».proof.Proof.Gen.Pre_finite_inputs
import proofs.«419029_j28003186770312_1_alg».proof.Proof.Gen.KernelIdeal.Value
import proofs.«419029_j28003186770312_1_alg».proof.Proof.Gen.ReferenceIdeal.Run
import proofs.«419029_j28003186770312_1_alg».proof.Proof.Gen.ReferenceIdeal.Read
import proofs.«419029_j28003186770312_1_alg».proof.Proof.KernelValue
import proofs.«419029_j28003186770312_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the specification of those arguments in
    their result arrays. -/
theorem algebraic : Cert.algebraic_KernelIdeal_ReferenceIdeal := by
  intro m ρ m' ρ' _ hagree
  refine ⟨fun c => Mesh.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.MeshValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_eq_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
